-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)) (v1 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_v2) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_v36) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x2048 : Shape := ⟨3, ![4, 4096, 2048]⟩
abbrev S4x2048x4 : Shape := ⟨3, ![4, 2048, 4]⟩
abbrev S2048x4 : Shape := ⟨2, ![2048, 4]⟩
abbrev S2048 : Shape := ⟨1, ![2048]⟩
abbrev S_ : Shape := ⟨0, ![]⟩

class Facts : Prop where
  bcast_S_S4x4096x2048 : S_.BroadcastsInDim S4x4096x2048 (![] : Fin 0 → Fin S4x4096x2048.rank)
  reducesTo_S4x4096x2048_S_d0_1_2 : S4x4096x2048.ReducesTo [0, 1, 2] S_
  h_S_ : 0 < S_.numel
  bcast_S_S4x2048x4 : S_.BroadcastsInDim S4x2048x4 (![] : Fin 0 → Fin S4x2048x4.rank)
  reducesTo_S4x2048x4_S_d0_1_2 : S4x2048x4.ReducesTo [0, 1, 2] S_
  bcast_S_S2048x4 : S_.BroadcastsInDim S2048x4 (![] : Fin 0 → Fin S2048x4.rank)
  reducesTo_S2048x4_S_d0_1 : S2048x4.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  main_v18

def fn {F : FTy → Type} [FloatOps F] (main_arg0 : FVec F S4x4096x2048 .f32) (main_arg1 : FVec F S4x2048x4 .f32) (main_arg2 : FVec F S2048x4 .f32) (main_arg3 : FVec F S2048 .f32) : IVec S_ 1 :=
  let main_v0 : FVec F S4x4096x2048 .f32 := Host.absf main_arg0
  let main_cst : FVec F S_ .f32 := constant S_ .f32 0x7F800000#32
  let main_v1 : FVec F S4x4096x2048 .f32 := broadcastInDim S4x4096x2048 ![] bcast_S_S4x4096x2048 main_cst
  let main_v2 : IVec S4x4096x2048 1 := cmpf .olt main_v0 main_v1
  let main_c : IVec S_ 1 := constantI S_ 1 1#1
  let main_v3 : IVec S_ 1 := (fun x v => Host.reduce IntOp.andi x v reducesTo_S4x4096x2048_S_d0_1_2 h_S_) main_v2 main_c
  let main_v4 : FVec F S4x2048x4 .f32 := Host.absf main_arg1
  let main_cst_0 : FVec F S_ .f32 := constant S_ .f32 0x7F800000#32
  let main_v5 : FVec F S4x2048x4 .f32 := broadcastInDim S4x2048x4 ![] bcast_S_S4x2048x4 main_cst_0
  let main_v6 : IVec S4x2048x4 1 := cmpf .olt main_v4 main_v5
  let main_c_1 : IVec S_ 1 := constantI S_ 1 1#1
  let main_v7 : IVec S_ 1 := (fun x v => Host.reduce IntOp.andi x v reducesTo_S4x2048x4_S_d0_1_2 h_S_) main_v6 main_c_1
  let main_v8 : IVec S_ 1 := andi main_v3 main_v7
  let main_v9 : FVec F S2048x4 .f32 := Host.absf main_arg2
  let main_cst_2 : FVec F S_ .f32 := constant S_ .f32 0x7F800000#32
  let main_v10 : FVec F S2048x4 .f32 := broadcastInDim S2048x4 ![] bcast_S_S2048x4 main_cst_2
  let main_v11 : IVec S2048x4 1 := cmpf .olt main_v9 main_v10
  let main_c_3 : IVec S_ 1 := constantI S_ 1 1#1
  let main_v12 : IVec S_ 1 := (fun x v => Host.reduce IntOp.andi x v reducesTo_S2048x4_S_d0_1 h_S_) main_v11 main_c_3
  let main_v13 : IVec S_ 1 := andi main_v8 main_v12
  let main_v14 : FVec F S2048 .f32 := Host.absf main_arg3
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_v13 main_v16
-- ==== Kernel.lean ====
abbrev S4x4096x2048 : Shape := ⟨3, ![4, 4096, 2048]⟩
abbrev S4x2048x4 : Shape := ⟨3, ![4, 2048, 4]⟩
abbrev S2048x4 : Shape := ⟨2, ![2048, 4]⟩
abbrev S2048 : Shape := ⟨1, ![2048]⟩
abbrev S1x512x2048 : Shape := ⟨3, ![1, 512, 2048]⟩
abbrev S1x2048x4 : Shape := ⟨3, ![1, 2048, 4]⟩
abbrev S1x8x2048 : Shape := ⟨3, ![1, 8, 2048]⟩
abbrev S1x520x2048 : Shape := ⟨3, ![1, 520, 2048]⟩
abbrev S1x2048x3 : Shape := ⟨3, ![1, 2048, 3]⟩
abbrev S1x3x2048 : Shape := ⟨3, ![1, 3, 2048]⟩
abbrev S2048x1 : Shape := ⟨2, ![2048, 1]⟩
abbrev S1x1x2048 : Shape := ⟨3, ![1, 1, 2048]⟩
abbrev S4x4x2048 : Shape := ⟨3, ![4, 4, 2048]⟩

abbrev nBuf : Space → Nat
  | .hbm => 7
  | .vmem => 10
  | .smem => 0
  | _ => 0

abbrev bufTy : (tb : Table) → Fin (tcTables nBuf tb) → BufTy
  | .hbm, ⟨0, _⟩ => ⟨S4x4096x2048, .f32⟩
  | .hbm, ⟨1, _⟩ => ⟨S4x2048x4, .f32⟩
  | .hbm, ⟨2, _⟩ => ⟨S2048x4, .f32⟩
  | .hbm, ⟨3, _⟩ => ⟨S2048, .f32⟩
  | .hbm, ⟨4, _⟩ => ⟨S4x4096x2048, .f32⟩
  | .hbm, ⟨5, _⟩ => ⟨S4x4x2048, .f32⟩
  | .hbm, ⟨6, _⟩ => ⟨S4x2048x4, .f32⟩
  | .local _ .vmem, ⟨0, _⟩ => ⟨S1x512x2048, .f32⟩
  | .local _ .vmem, ⟨1, _⟩ => ⟨S1x512x2048, .f32⟩
  | .local _ .vmem, ⟨2, _⟩ => ⟨S1x2048x4, .f32⟩
  | .local _ .vmem, ⟨3, _⟩ => ⟨S1x2048x4, .f32⟩
  | .local _ .vmem, ⟨4, _⟩ => ⟨S2048x4, .f32⟩
  | .local _ .vmem, ⟨5, _⟩ => ⟨S2048, .f32⟩
  | .local _ .vmem, ⟨6, _⟩ => ⟨S1x512x2048, .f32⟩
  | .local _ .vmem, ⟨7, _⟩ => ⟨S1x512x2048, .f32⟩
  | .local _ .vmem, ⟨8, _⟩ => ⟨S1x8x2048, .f32⟩
  | .local _ .vmem, ⟨9, _⟩ => ⟨S1x520x2048, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S2048x4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  inb_S1x8x2048_S1x8x2048_0_0_0 : ∀ a, (![0, 0, 0] : Fin 3 → Nat) a + S1x8x2048.size a ≤ S1x8x2048.size a
  h_S1x8x2048 : 0 < S1x8x2048.numel
  shapeCasts_S1x8x2048_S1x8x2048 : S1x8x2048.ShapeCasts S1x8x2048
  inb_S1x2048x4_S1x2048x4_0_0_0 : ∀ a, (![0, 0, 0] : Fin 3 → Nat) a + S1x2048x4.size a ≤ S1x2048x4.size a
  h_S1x2048x4 : 0 < S1x2048x4.numel
  slices_S1x2048x4_o0_0_1_S1x2048x3 : S1x2048x4.Slices ![0, 0, 1] S1x2048x3
  transposes_S1x2048x3_p0_2_1_S1x3x2048 : S1x2048x3.Transposes [0, 2, 1] S1x3x2048
  inb_S1x8x2048_S1x3x2048_0_5_0 : ∀ a, (![0, 5, 0] : Fin 3 → Nat) a + S1x3x2048.size a ≤ S1x8x2048.size a
  h_S1x3x2048 : 0 < S1x3x2048.numel
  shapeCasts_S1x3x2048_S1x3x2048 : S1x3x2048.ShapeCasts S1x3x2048
  inb_S1x512x2048_S1x512x2048_0_0_0 : ∀ a, (![0, 0, 0] : Fin 3 → Nat) a + S1x512x2048.size a ≤ S1x512x2048.size a
  h_S1x512x2048 : 0 < S1x512x2048.numel
  inb_S1x520x2048_S1x8x2048_0_0_0 : ∀ a, (![0, 0, 0] : Fin 3 → Nat) a + S1x8x2048.size a ≤ S1x520x2048.size a
  inb_S1x520x2048_S1x512x2048_0_8_0 : ∀ a, (![0, 8, 0] : Fin 3 → Nat) a + S1x512x2048.size a ≤ S1x520x2048.size a
  shapeCasts_S1x512x2048_S1x512x2048 : S1x512x2048.ShapeCasts S1x512x2048
  inb_S2048x4_S2048x4_0_0 : ∀ a, (![0, 0] : Fin 2 → Nat) a + S2048x4.size a ≤ S2048x4.size a
  h_S2048x4 : 0 < S2048x4.numel
  inb_S1x520x2048_S1x512x2048_0_5_0 : ∀ a, (![0, 5, 0] : Fin 3 → Nat) a + S1x512x2048.size a ≤ S1x520x2048.size a
  slices_S2048x4_o0_0_S2048x1 : S2048x4.Slices ![0, 0] S2048x1
  shapeCasts_S2048x1_S2048 : S2048x1.ShapeCasts S2048
  shapeCasts_S2048_S1x1x2048 : S2048.ShapeCasts S1x1x2048
  broadcasts_S1x1x2048_S1x512x2048 : S1x1x2048.Broadcasts S1x512x2048
  inb_S1x520x2048_S1x512x2048_0_6_0 : ∀ a, (![0, 6, 0] : Fin 3 → Nat) a + S1x512x2048.size a ≤ S1x520x2048.size a
  slices_S2048x4_o0_1_S2048x1 : S2048x4.Slices ![0, 1] S2048x1
  inb_S1x520x2048_S1x512x2048_0_7_0 : ∀ a, (![0, 7, 0] : Fin 3 → Nat) a + S1x512x2048.size a ≤ S1x520x2048.size a
  slices_S2048x4_o0_2_S2048x1 : S2048x4.Slices ![0, 2] S2048x1
  slices_S2048x4_o0_3_S2048x1 : S2048x4.Slices ![0, 3] S2048x1
  inb_S2048_S2048_0 : ∀ a, (![0] : Fin 1 → Nat) a + S2048.size a ≤ S2048.size a
  h_S2048 : 0 < S2048.numel
  inb_S1x520x2048_S1x8x2048_0_512_0 : ∀ a, (![0, 512, 0] : Fin 3 → Nat) a + S1x8x2048.size a ≤ S1x520x2048.size a
  slices_S4x4096x2048_S4x4x2048_0_4092_0 : S4x4096x2048.Slices ![0, 4092, 0] S4x4x2048
  transposes_S4x4x2048_S4x2048x4_0_2_1 : S4x4x2048.Transposes [0, 2, 1] S4x2048x4
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x2048.size a ≤ S4x4096x2048.size a
  hwx0_0 : ∀ i : grid0.Coords, EltTy.bits .f32 = 32 ∨ (Rect.block (s := S4x4096x2048) S1x512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x4.size a ≤ S4x2048x4.size a
  hwx0_1 : ∀ i : grid0.Coords, EltTy.bits .f32 = 32 ∨ (Rect.block (s := S4x2048x4) S1x2048x4.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x4.size a ≤ S2048x4.size a
  hwx0_2 : ∀ i : grid0.Coords, EltTy.bits .f32 = 32 ∨ (Rect.block (s := S2048x4) S2048x4.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048.size a ≤ S2048.size a
  hwx0_3 : ∀ i : grid0.Coords, EltTy.bits .f32 = 32 ∨ (Rect.block (s := S2048) S2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x2048.size a ≤ S4x4096x2048.size a
  hwx0_4 : ∀ i : grid0.Coords, EltTy.bits .f32 = 32 ∨ (Rect.block (s := S4x4096x2048) S1x512x2048.size (cc0_transform_4 i) (hinb0_4 i)).WholeWords (EltTy.packing .f32)

variable [Facts₀]

abbrev win0_0 : Pipeline.Window sig grid0 :=
  Pipeline.Window.ofSpec (Memref.whole main_arg0) S1x512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2048x4.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x512x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x4096x2048 : Shape := ⟨3, ![4, 4096, 2048]⟩
abbrev S4x2048x4 : Shape := ⟨3, ![4, 2048, 4]⟩
abbrev S2048x4 : Shape := ⟨2, ![2048, 4]⟩
abbrev S2048 : Shape := ⟨1, ![2048]⟩
abbrev S4x2048x4096 : Shape := ⟨3, ![4, 2048, 4096]⟩
abbrev S4x2048x3 : Shape := ⟨3, ![4, 2048, 3]⟩
abbrev S4x2048x4099 : Shape := ⟨3, ![4, 2048, 4099]⟩
abbrev S_ : Shape := ⟨0, ![]⟩
abbrev S2048x1 : Shape := ⟨2, ![2048, 1]⟩
abbrev S1x2048x1 : Shape := ⟨3, ![1, 2048, 1]⟩
abbrev S4x2048x4100 : Shape := ⟨3, ![4, 2048, 4100]⟩

abbrev nBuf : Space → Nat
  | .hbm => 43
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S4x2048x4, .f32⟩
  | .hbm, ⟨2, _⟩ => ⟨S2048x4, .f32⟩
  | .hbm, ⟨3, _⟩ => ⟨S2048, .f32⟩
  | .hbm, ⟨4, _⟩ => ⟨S4x2048x4096, .f32⟩
  | .hbm, ⟨5, _⟩ => ⟨S4x2048x3, .f32⟩
  | .hbm, ⟨6, _⟩ => ⟨S4x2048x4099, .f32⟩
  | .hbm, ⟨7, _⟩ => ⟨S_, .f32⟩
  | .hbm, ⟨8, _⟩ => ⟨S4x2048x4096, .f32⟩
  | .hbm, ⟨9, _⟩ => ⟨S4x2048x4096, .f32⟩
  | .hbm, ⟨10, _⟩ => ⟨S2048x1, .f32⟩
  | .hbm, ⟨11, _⟩ => ⟨S2048, .f32⟩
  | .hbm, ⟨12, _⟩ => ⟨S1x2048x1, .f32⟩
  | .hbm, ⟨13, _⟩ => ⟨S4x2048x4096, .f32⟩
  | .hbm, ⟨14, _⟩ => ⟨S4x2048x4096, .f32⟩
  | .hbm, ⟨15, _⟩ => ⟨S4x2048x4096, .f32⟩
  | .hbm, ⟨16, _⟩ => ⟨S4x2048x4096, .f32⟩
  | .hbm, ⟨17, _⟩ => ⟨S2048x1, .f32⟩
  | .hbm, ⟨18, _⟩ => ⟨S2048, .f32⟩
  | .hbm, ⟨19, _⟩ => ⟨S1x2048x1, .f32⟩
  | .hbm, ⟨20, _⟩ => ⟨S4x2048x4096, .f32⟩
  | .hbm, ⟨21, _⟩ => ⟨S4x2048x4096, .f32⟩
  | .hbm, ⟨22, _⟩ => ⟨S4x2048x4096, .f32⟩
  | .hbm, ⟨23, _⟩ => ⟨S4x2048x4096, .f32⟩
  | .hbm, ⟨24, _⟩ => ⟨S2048x1, .f32⟩
  | .hbm, ⟨25, _⟩ => ⟨S2048, .f32⟩
  | .hbm, ⟨26, _⟩ => ⟨S1x2048x1, .f32⟩
  | .hbm, ⟨27, _⟩ => ⟨S4x2048x4096, .f32⟩
  | .hbm, ⟨28, _⟩ => ⟨S4x2048x4096, .f32⟩
  | .hbm, ⟨29, _⟩ => ⟨S4x2048x4096, .f32⟩
  | .hbm, ⟨30, _⟩ => ⟨S4x2048x4096, .f32⟩
  | .hbm, ⟨31, _⟩ => ⟨S2048x1, .f32⟩
  | .hbm, ⟨32, _⟩ => ⟨S2048, .f32⟩
  | .hbm, ⟨33, _⟩ => ⟨S1x2048x1, .f32⟩
  | .hbm, ⟨34, _⟩ => ⟨S4x2048x4096, .f32⟩
  | .hbm, ⟨35, _⟩ => ⟨S4x2048x4096, .f32⟩
  | .hbm, ⟨36, _⟩ => ⟨S4x2048x4096, .f32⟩
  | .hbm, ⟨37, _⟩ => ⟨S1x2048x1, .f32⟩
  | .hbm, ⟨38, _⟩ => ⟨S4x2048x4096, .f32⟩
  | .hbm, ⟨39, _⟩ => ⟨S4x2048x4096, .f32⟩
  | .hbm, ⟨40, _⟩ => ⟨S4x2048x4100, .f32⟩
  | .hbm, ⟨41, _⟩ => ⟨S4x2048x4, .f32⟩
  | .hbm, ⟨42, _⟩ => ⟨S4x4096x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩

abbrev nD : Nat := 1
abbrev τ : Topo := Topo.v7x

variable {F : FTy → Type} [FloatOps F]

class Facts₀ : Prop where
  transposes_S4x4096x2048_S4x2048x4096_0_2_1 : S4x4096x2048.Transposes [0, 2, 1] S4x2048x4096
  slices_S4x2048x4_S4x2048x3_0_0_1 : S4x2048x4.Slices ![0, 0, 1] S4x2048x3
  concatenates_S4x2048x3_S4x2048x4096_S4x2048x4099_d2 : Shape.Concatenates [S4x2048x3, S4x2048x4096] S4x2048x4099 2
  bcast_S_S4x2048x4096 : S_.BroadcastsInDim S4x2048x4096 (![] : Fin 0 → Fin S4x2048x4096.rank)
  slices_S4x2048x4099_S4x2048x4096_0_0_0 : S4x2048x4099.Slices ![0, 0, 0] S4x2048x4096
  slices_S2048x4_S2048x1_0_0 : S2048x4.Slices ![0, 0] S2048x1
  shapeCasts_S2048x1_S2048 : S2048x1.ShapeCasts S2048
  bcast_S2048_S1x2048x1_1 : S2048.BroadcastsInDim S1x2048x1 (![1] : Fin 1 → Fin S1x2048x1.rank)
  bcast_S1x2048x1_S4x2048x4096_0_1_2 : S1x2048x1.BroadcastsInDim S4x2048x4096 (![0, 1, 2] : Fin 3 → Fin S4x2048x4096.rank)
  slices_S4x2048x4099_S4x2048x4096_0_0_1 : S4x2048x4099.Slices ![0, 0, 1] S4x2048x4096
  slices_S2048x4_S2048x1_0_1 : S2048x4.Slices ![0, 1] S2048x1
  slices_S4x2048x4099_S4x2048x4096_0_0_2 : S4x2048x4099.Slices ![0, 0, 2] S4x2048x4096
  slices_S2048x4_S2048x1_0_2 : S2048x4.Slices ![0, 2] S2048x1
  slices_S4x2048x4099_S4x2048x4096_0_0_3 : S4x2048x4099.Slices ![0, 0, 3] S4x2048x4096
  slices_S2048x4_S2048x1_0_3 : S2048x4.Slices ![0, 3] S2048x1
  concatenates_S4x2048x4_S4x2048x4096_S4x2048x4100_d2 : Shape.Concatenates [S4x2048x4, S4x2048x4096] S4x2048x4100 2
  slices_S4x2048x4100_S4x2048x4_0_0_4096 : S4x2048x4100.Slices ![0, 0, 4096] S4x2048x4
  transposes_S4x2048x4096_S4x4096x2048_0_2_1 : S4x2048x4096.Transposes [0, 2, 1] S4x4096x2048

variable [Facts₀]

class Facts : Prop extends Facts₀ where

variable [Facts]
-- ==== Proof.ConvSpec.lean ====
/-
  The depthwise causal convolution with four taps, and the rolling state it leaves, each as ONE function of the
  argument arrays, entry by entry over the extended reals.

  For a batch `b` and a channel `c` the sequence convolved is the input's column `x[b, ·, c]` with three entries put
  in front of it: the last three of the four entries of the incoming state `state[b, c, ·]` (its first entry is
  dropped). Entry `t` of the output is

      ((((0 + p[t]·w[c,0]) + p[t+1]·w[c,1]) + p[t+2]·w[c,2]) + p[t+3]·w[c,3]) + bias[c]

  where `p` is that padded sequence; the additions are kept in this order, so nothing about the extended reals'
  arithmetic at the infinities is used anywhere. The state left behind is the last four entries of the column.
-/
import Idealize.ShloMosaic.PureOps.Ideal
import Idealize.ShloMosaic.Lib.ValueIdx

noncomputable section

namespace Cert.CausalConv

open Idealize.ShloMosaic Idealize.ShloMosaic.ValueIdx

/-- The input and the output: batch × time × channel. -/
abbrev SX : Shape := ⟨3, ![4, 4096, 2048]⟩
/-- The rolling state: batch × channel × tap. -/
abbrev SState : Shape := ⟨3, ![4, 2048, 4]⟩
/-- The weights: channel × tap. -/
abbrev SWeight : Shape := ⟨2, ![2048, 4]⟩
/-- The bias: one entry per channel. -/
abbrev SBias : Shape := ⟨1, ![2048]⟩

/-- One output entry from the four entries of the padded sequence under the taps, the channel's four weights and its
    bias: the products added to the starting value `z` first tap first, the bias last. -/
def mac (z f0 f1 f2 f3 w0 w1 w2 w3 bias : EReal) : EReal :=
  ((((z + f0 * w0) + f1 * w1) + f2 * w2) + f3 * w3) + bias

/-- Entry `j` of the padded sequence of batch `b`, channel `c`: for `j < 3` entry `j + 1` of the incoming state, from
    `j = 3` on entry `j - 3` of the input's column (past the column's end, where nothing reads it, `0`). -/
def padded (x : SX.Idx → EReal) (state : SState.Idx → EReal) (b : Fin 4) (c : Fin 2048) (j : ℕ) : EReal :=
  if h : j < 3 then state (ix3 b c ⟨j + 1, by omega⟩)
  else if h' : j - 3 < 4096 then x (ix3 b ⟨j - 3, h'⟩ c) else 0

/-- The convolution's entry at batch `b`, time `t`, channel `c`. -/
def convAt (x : SX.Idx → EReal) (state : SState.Idx → EReal) (w : SWeight.Idx → EReal) (bias : SBias.Idx → EReal)
    (b : Fin 4) (t : Fin 4096) (c : Fin 2048) : EReal :=
  mac (Ideal.ofBits .f32 0x00000000#32)
    (padded x state b c t.val) (padded x state b c (t.val + 1)) (padded x state b c (t.val + 2)) (padded x state b c (t.val + 3))
    (w (ix2 c 0)) (w (ix2 c 1)) (w (ix2 c 2)) (w (ix2 c 3)) (bias (ix1 c))

/-- The convolution as an array. -/
def conv (x : SX.Idx → EReal) (state : SState.Idx → EReal) (w : SWeight.Idx → EReal) (bias : SBias.Idx → EReal) :
    SX.Idx → EReal :=
  fun i => convAt x state w bias (i 0) (i 1) (i 2)

/-- The state left behind at batch `b`, channel `c`, slot `k`: entry `4092 + k` of the input's column. -/
def lastAt (x : SX.Idx → EReal) (b : Fin 4) (c : Fin 2048) (k : Fin 4) : EReal :=
  x (ix3 b ⟨4092 + k.val, by omega⟩ c)

/-- The state left behind as an array. -/
def lastFour (x : SX.Idx → EReal) : SState.Idx → EReal :=
  fun i => lastAt x (i 0) (i 1) (i 2)

theorem conv_apply (x : SX.Idx → EReal) (state : SState.Idx → EReal) (w : SWeight.Idx → EReal) (bias : SBias.Idx → EReal)
    (b : Fin 4) (t : Fin 4096) (c : Fin 2048) : conv x state w bias (ix3 b t c) = convAt x state w bias b t c := rfl

theorem lastFour_apply (x : SX.Idx → EReal) (b : Fin 4) (c : Fin 2048) (k : Fin 4) :
    lastFour x (ix3 b c k) = lastAt x b c k := rfl

end Cert.CausalConv

end
-- ==== Proof.RefValue.lean ====
/-
  The reference, read entry by entry: its two results are the convolution and the trailing state of ConvSpec.

  The reference moves time to the last axis, joins the incoming state's last three entries and the input along it,
  and adds, tap by tap, a slice of that joined sequence shifted by the tap's number times the tap's weight, starting
  from a zero array; the bias comes last, and time goes back to the middle axis. Read at one entry, the joined sequence
  is the padded sequence of the specification (a position below three falls in the state's piece, any other in the
  input's), each shifted slice is the padded sequence at the time plus the tap's number, and each broadcast weight or
  bias is the channel's entry. The additions stand in the specification's order, so the two sides are the same
  expression. The state result joins the whole incoming state and the input and keeps the last four positions, which
  all fall in the input's piece: the last four entries of the column.
-/
import proofs.«100175_j59760174956725_1_alg».proof.Proof.Gen.ReferenceIdeal.Read
import proofs.«100175_j59760174956725_1_alg».proof.Proof.ConvSpec
import Idealize.ShloMosaic.Lib.ValueIdx
import Idealize.ShloMosaic.Lib.Pipeline.Value

noncomputable section

namespace Cert.ReferenceIdeal.RefValue

open Cert.ReferenceIdeal Cert.ReferenceIdeal.Gen Cert.ReferenceIdeal.Read Cert.CausalConv
open Idealize.ShloMosaic Idealize.ShloMosaic.ValueIdx

variable (x0 : (⟨S4x4096x2048, .f32⟩ : BufTy).Contents (Elt Ideal)) (x1 : (⟨S4x2048x4, .f32⟩ : BufTy).Contents (Elt Ideal))
  (x2 : (⟨S2048x4, .f32⟩ : BufTy).Contents (Elt Ideal)) (x3 : (⟨S2048, .f32⟩ : BufTy).Contents (Elt Ideal))

/-- The joined sequence at position `j` of batch `b`, channel `c` is the padded sequence there: below three the
    state's entry `j + 1`, from three on the input's entry `j - 3`. -/
theorem joined_eq (b : Fin 4) (c : Fin 2048) (j : Fin 4099) :
    val_main_v2 (F := Ideal) x0 x1 (ix3 b c j) = padded x0 x1 b c j.val := by
  unfold val_main_v2 padded
  by_cases h : j.val < 3
  · rw [dif_pos h]
    refine (concatenate_pair_apply_left _ _ _ concatenates_S4x2048x3_S4x2048x4096_S4x2048x4099_d2 (ix3 b c j) rfl
      (ix3 b c (⟨j.val, h⟩ : Fin 3)) (fun a => match a with | ⟨0, _⟩ => rfl | ⟨1, _⟩ => rfl | ⟨2, _⟩ => rfl)).trans ?_
    rw [val_main_v1_apply]
    exact congrArg x1 (funext fun a => match a with
      | ⟨0, _⟩ => rfl
      | ⟨1, _⟩ => rfl
      | ⟨2, _⟩ => Fin.ext (by show 1 + j.val = j.val + 1; omega))
  · have h' : j.val - 3 < 4096 := by have := j.isLt; omega
    rw [dif_neg h, dif_pos h']
    refine (concatenate_pair_apply_right _ _ _ concatenates_S4x2048x3_S4x2048x4096_S4x2048x4099_d2 (ix3 b c j) rfl rfl
      (ix3 b c (⟨j.val - 3, h'⟩ : Fin 4096))
      (fun a ha => match a, ha with
        | ⟨0, _⟩, _ => rfl
        | ⟨1, _⟩, _ => rfl
        | ⟨2, _⟩, ha => absurd (Fin.ext rfl) ha)
      (by show j.val - 3 + 3 = j.val; omega)).trans ?_
    rw [val_main_v0_apply]
    exact congrArg x0 (funext fun a => match a with | ⟨0, _⟩ => rfl | ⟨1, _⟩ => rfl | ⟨2, _⟩ => rfl)

/-! ### The four shifted slices -/

theorem tap0 (b : Fin 4) (c : Fin 2048) (t : Fin 4096) :
    val_main_v4 (F := Ideal) x0 x1 (ix3 b c t) = padded x0 x1 b c t.val := by
  have e : idx_main_v4 (ix3 b c t) = ix3 b c (⟨t.val, by omega⟩ : Fin 4099) :=
    funext fun a => match a with | ⟨0, _⟩ => rfl | ⟨1, _⟩ => rfl | ⟨2, _⟩ => rfl
  exact (val_main_v4_apply x0 x1 _).trans ((congrArg (val_main_v2 (F := Ideal) x0 x1) e).trans (joined_eq x0 x1 b c _))

theorem tap1 (b : Fin 4) (c : Fin 2048) (t : Fin 4096) :
    val_main_v11 (F := Ideal) x0 x1 (ix3 b c t) = padded x0 x1 b c (t.val + 1) := by
  have e : idx_main_v11 (ix3 b c t) = ix3 b c (⟨t.val + 1, by omega⟩ : Fin 4099) :=
    funext fun a => match a with
      | ⟨0, _⟩ => rfl
      | ⟨1, _⟩ => rfl
      | ⟨2, _⟩ => Fin.ext (by show 1 + t.val = t.val + 1; omega)
  exact (val_main_v11_apply x0 x1 _).trans ((congrArg (val_main_v2 (F := Ideal) x0 x1) e).trans (joined_eq x0 x1 b c _))

theorem tap2 (b : Fin 4) (c : Fin 2048) (t : Fin 4096) :
    val_main_v18 (F := Ideal) x0 x1 (ix3 b c t) = padded x0 x1 b c (t.val + 2) := by
  have e : idx_main_v18 (ix3 b c t) = ix3 b c (⟨t.val + 2, by omega⟩ : Fin 4099) :=
    funext fun a => match a with
      | ⟨0, _⟩ => rfl
      | ⟨1, _⟩ => rfl
      | ⟨2, _⟩ => Fin.ext (by show 2 + t.val = t.val + 2; omega)
  exact (val_main_v18_apply x0 x1 _).trans ((congrArg (val_main_v2 (F := Ideal) x0 x1) e).trans (joined_eq x0 x1 b c _))

theorem tap3 (b : Fin 4) (c : Fin 2048) (t : Fin 4096) :
    val_main_v25 (F := Ideal) x0 x1 (ix3 b c t) = padded x0 x1 b c (t.val + 3) := by
  have e : idx_main_v25 (ix3 b c t) = ix3 b c (⟨t.val + 3, by omega⟩ : Fin 4099) :=
    funext fun a => match a with
      | ⟨0, _⟩ => rfl
      | ⟨1, _⟩ => rfl
      | ⟨2, _⟩ => Fin.ext (by show 3 + t.val = t.val + 3; omega)
  exact (val_main_v25_apply x0 x1 _).trans ((congrArg (val_main_v2 (F := Ideal) x0 x1) e).trans (joined_eq x0 x1 b c _))

/-! ### The broadcast weights, bias and zero -/

theorem weight0 (b : Fin 4) (c : Fin 2048) (t : Fin 4096) : val_main_v8 (F := Ideal) x2 (ix3 b c t) = x2 (ix2 c 0) := by
  rw [val_main_v8_apply, val_main_v7_apply, val_main_v6_apply, val_main_v5_apply]
  exact congrArg x2 (funext fun a => match a with
    | ⟨0, _⟩ => Fin.ext (by show c.val / 1 = c.val; omega)
    | ⟨1, _⟩ => Fin.ext rfl)

theorem weight1 (b : Fin 4) (c : Fin 2048) (t : Fin 4096) : val_main_v15 (F := Ideal) x2 (ix3 b c t) = x2 (ix2 c 1) := by
  rw [val_main_v15_apply, val_main_v14_apply, val_main_v13_apply, val_main_v12_apply]
  exact congrArg x2 (funext fun a => match a with
    | ⟨0, _⟩ => Fin.ext (by show c.val / 1 = c.val; omega)
    | ⟨1, _⟩ => Fin.ext rfl)

theorem weight2 (b : Fin 4) (c : Fin 2048) (t : Fin 4096) : val_main_v22 (F := Ideal) x2 (ix3 b c t) = x2 (ix2 c 2) := by
  rw [val_main_v22_apply, val_main_v21_apply, val_main_v20_apply, val_main_v19_apply]
  exact congrArg x2 (funext fun a => match a with
    | ⟨0, _⟩ => Fin.ext (by show c.val / 1 = c.val; omega)
    | ⟨1, _⟩ => Fin.ext rfl)

theorem weight3 (b : Fin 4) (c : Fin 2048) (t : Fin 4096) : val_main_v29 (F := Ideal) x2 (ix3 b c t) = x2 (ix2 c 3) := by
  rw [val_main_v29_apply, val_main_v28_apply, val_main_v27_apply, val_main_v26_apply]
  exact congrArg x2 (funext fun a => match a with
    | ⟨0, _⟩ => Fin.ext (by show c.val / 1 = c.val; omega)
    | ⟨1, _⟩ => Fin.ext rfl)

theorem bias_eq (b : Fin 4) (c : Fin 2048) (t : Fin 4096) : val_main_v33 (F := Ideal) x3 (ix3 b c t) = x3 (ix1 c) := by
  rw [val_main_v33_apply, val_main_v32_apply]
  exact congrArg x3 (funext fun a => match a with | ⟨0, _⟩ => rfl)

theorem zero_eq (b : Fin 4) (c : Fin 2048) (t : Fin 4096) :
    val_main_v3 (F := Ideal) (ix3 b c t) = Ideal.ofBits .f32 0x00000000#32 := by
  rw [val_main_v3_apply, val_main_cst_apply]
  rfl

/-! ### The two results -/

/-- The reference's convolution result at batch `b`, time `t`, channel `c`. -/
theorem conv_entry (b : Fin 4) (t : Fin 4096) (c : Fin 2048) :
    val_main_v37 (F := Ideal) x0 x1 x2 x3 (ix3 b t c) = convAt x0 x1 x2 x3 b t c := by
  have e : idx_main_v37 (ix3 b t c) = ix3 b c t :=
    funext fun a => match a with | ⟨0, _⟩ => rfl | ⟨1, _⟩ => rfl | ⟨2, _⟩ => rfl
  refine (val_main_v37_apply x0 x1 x2 x3 _).trans ((congrArg (val_main_v34 (F := Ideal) x0 x1 x2 x3) e).trans ?_)
  rw [val_main_v34_apply, val_main_v31_apply, val_main_v24_apply, val_main_v17_apply, val_main_v10_apply,
    val_main_v9_apply, val_main_v16_apply, val_main_v23_apply, val_main_v30_apply,
    zero_eq, tap0, tap1, tap2, tap3, weight0, weight1, weight2, weight3, bias_eq]
  rfl

/-- The reference's convolution result is the specification's convolution of the arguments. -/
theorem result_conv : val_main_v37 (F := Ideal) x0 x1 x2 x3 = conv x0 x1 x2 x3 := by
  funext i
  obtain ⟨b, t, c, rfl⟩ : ∃ (b : Fin 4) (t : Fin 4096) (c : Fin 2048), i = ix3 b t c := ⟨i 0, i 1, i 2, eq_ix3 i⟩
  exact conv_entry x0 x1 x2 x3 b t c

/-- The reference's state result at batch `b`, channel `c`, slot `k`: position `4096 + k` of the whole state joined
    with the input, which is the input's entry `4092 + k`. -/
theorem state_entry (b : Fin 4) (c : Fin 2048) (k : Fin 4) :
    val_main_v36 (F := Ideal) x0 x1 (ix3 b c k) = lastAt x0 b c k := by
  have hk : 4092 + k.val < 4096 := by omega
  refine (val_main_v36_apply x0 x1 _).trans ?_
  unfold val_main_v35 lastAt
  refine (concatenate_pair_apply_right _ _ _ concatenates_S4x2048x4_S4x2048x4096_S4x2048x4100_d2 (idx_main_v36 (ix3 b c k)) rfl rfl
    (ix3 b c (⟨4092 + k.val, hk⟩ : Fin 4096))
    (fun a ha => match a, ha with
      | ⟨0, _⟩, _ => rfl
      | ⟨1, _⟩, _ => rfl
      | ⟨2, _⟩, ha => absurd (Fin.ext rfl) ha)
    (by show 4092 + k.val + 4 = 4096 + k.val; omega)).trans ?_
  rw [val_main_v0_apply]
  exact congrArg x0 (funext fun a => match a with | ⟨0, _⟩ => rfl | ⟨1, _⟩ => rfl | ⟨2, _⟩ => rfl)

/-- The reference's state result is the last four entries of each column of the input. -/
theorem result_state : val_main_v36 (F := Ideal) x0 x1 = lastFour x0 := by
  funext i
  obtain ⟨b, c, k, rfl⟩ : ∃ (b : Fin 4) (c : Fin 2048) (k : Fin 4), i = ix3 b c k := ⟨i 0, i 1, i 2, eq_ix3 i⟩
  exact state_entry x0 x1 b c k

end Cert.ReferenceIdeal.RefValue

end
-- ==== Proof.KTile.lean ====
/-
  One grid point of the kernel, read as values.

  The kernel lays a window of 520 rows in scratch memory: eight carried rows, then the 512 rows of the point's tile of
  the input. Output row `r` of the tile is the ordered multiply-accumulate of window rows `r + 5 … r + 8` with the
  channel's four weights, plus the bias: the three rows before the tile's first come from the carried rows 5, 6, 7.
  What is carried to the next point is the tile's last eight rows. At the first tile of a batch the carried rows are
  set afresh: zero, with the incoming state's entries 1, 2, 3 of each channel in rows 5, 6, 7.
-/
import proofs.«100175_j59760174956725_1_alg».proof.Proof.Gen.KernelIdeal.Frame
import proofs.«100175_j59760174956725_1_alg».proof.Proof.ConvSpec
import Idealize.ShloMosaic.Lib.Pipeline.Value
import Idealize.ShloMosaic.Lib.ValueIdx
import Idealize.ShloMosaic.Lib.Tactic

noncomputable section

namespace Cert.KernelIdeal.Tile

open Cert.KernelIdeal Cert.KernelIdeal.Gen Cert.CausalConv
open Idealize.ShloMosaic Idealize.ShloMosaic.TcCoe Idealize.ShloMosaic.ValueIdx Idealize.ShloMosaic.Tactic Idealize.SL.Sem

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-! ## The arithmetic of one output row -/

/-- Column `o` of the weights, laid along the channel axis and repeated over the tile's rows, at row `r`, channel
    `ch`: the channel's weight `o`. -/
theorem weightRow_apply (w : FVec Ideal S2048x4 .f32) (o : ℕ) (ho : o < 4) (h1 : S2048x4.Slices ![0, o] S2048x1)
    (h2 : S2048x1.ShapeCasts S2048) (h3 : S2048.ShapeCasts S1x1x2048) (h4 : S1x1x2048.Broadcasts S1x512x2048)
    (r : Fin 512) (ch : Fin 2048) :
    broadcastTo S1x512x2048 (shapeCast S1x1x2048 (shapeCast S2048 (extractStridedSlice S2048x1 ![0, o] w h1) h2) h3) h4
        (ix3 (0 : Fin 1) r ch)
      = w (ix2 ch (⟨o, ho⟩ : Fin 4)) := by
  refine (broadcastTo_apply _ h4 (ix3 (0 : Fin 1) r ch) (ix3 (0 : Fin 1) (0 : Fin 1) ch) (fun a => match a with
    | ⟨0, _⟩ => by show (0 : ℕ) = if (1 : ℕ) = 1 then 0 else _; rw [if_pos rfl]
    | ⟨1, _⟩ => by show (0 : ℕ) = if (1 : ℕ) = 1 then 0 else _; rw [if_pos rfl]
    | ⟨2, _⟩ => by show ch.val = if (2048 : ℕ) = 1 then 0 else ch.val; rw [if_neg (by decide)])).trans ?_
  refine (shapeCast_apply _ h3 (ix3 (0 : Fin 1) (0 : Fin 1) ch) (ix1 ch)
    (by rw [Shape.rowMajor_val_one, Shape.rowMajor_val_three]; show ch.val = (0 * 1 + 0) * 2048 + ch.val; omega)).trans ?_
  refine (shapeCast_apply _ h2 (ix1 ch) (ix2 ch (0 : Fin 1))
    (by rw [Shape.rowMajor_val_two, Shape.rowMajor_val_one]; show ch.val * 1 + 0 = ch.val; omega)).trans ?_
  exact extractStridedSlice_apply ![0, o] w h1 (ix2 ch (0 : Fin 1)) (ix2 ch (⟨o, ho⟩ : Fin 4)) (fun a => match a with
    | ⟨0, _⟩ => by show ch.val = 0 + ch.val; omega
    | ⟨1, _⟩ => by show o = o + 0; omega)

/-- The bias laid along the channel axis and repeated over the tile's rows, at row `r`, channel `ch`. -/
theorem biasRow_apply (b : FVec Ideal S2048 .f32) (h3 : S2048.ShapeCasts S1x1x2048) (h4 : S1x1x2048.Broadcasts S1x512x2048)
    (r : Fin 512) (ch : Fin 2048) :
    broadcastTo S1x512x2048 (shapeCast S1x1x2048 b h3) h4 (ix3 (0 : Fin 1) r ch) = b (ix1 ch) := by
  refine (broadcastTo_apply _ h4 (ix3 (0 : Fin 1) r ch) (ix3 (0 : Fin 1) (0 : Fin 1) ch) (fun a => match a with
    | ⟨0, _⟩ => by show (0 : ℕ) = if (1 : ℕ) = 1 then 0 else _; rw [if_pos rfl]
    | ⟨1, _⟩ => by show (0 : ℕ) = if (1 : ℕ) = 1 then 0 else _; rw [if_pos rfl]
    | ⟨2, _⟩ => by show ch.val = if (2048 : ℕ) = 1 then 0 else ch.val; rw [if_neg (by decide)])).trans ?_
  exact shapeCast_apply _ h3 (ix3 (0 : Fin 1) (0 : Fin 1) ch) (ix1 ch)
    (by rw [Shape.rowMajor_val_one, Shape.rowMajor_val_three]; show ch.val = (0 * 1 + 0) * 2048 + ch.val; omega)

/-- The stored output block at row `r`, channel `ch`, from the four shifted reads of the window `v13 v20 v27 v34`, the
    weights and the bias: the ordered multiply-accumulate of the specification. -/
theorem pay1_apply (w : Vec Ideal S2048x4 .f32) (v13 v20 v27 v34 : Vec Ideal S1x512x2048 .f32) (b : Vec Ideal S2048 .f32)
    (r : Fin 512) (ch : Fin 2048) :
    k0_pay1 (F := Ideal) w (k0_pay7 (F := Ideal) w v13 v20) v27 (k0_pay8 (F := Ideal) w) v34 b (ix3 (0 : Fin 1) r ch)
      = mac (Ideal.ofBits .f32 0x00000000#32) (v13 (ix3 (0 : Fin 1) r ch)) (v20 (ix3 (0 : Fin 1) r ch)) (v27 (ix3 (0 : Fin 1) r ch))
          (v34 (ix3 (0 : Fin 1) r ch)) (w (ix2 ch 0)) (w (ix2 ch 1)) (w (ix2 ch 2)) (w (ix2 ch 3)) (b (ix1 ch)) := by
  unfold k0_pay1 k0_pay7 k0_pay8 mac
  simp only [addf_apply, mulf_apply, broadcast_apply]
  rw [weightRow_apply w 0 (by omega), weightRow_apply w 1 (by omega), weightRow_apply w 2 (by omega),
    weightRow_apply w 3 (by omega), biasRow_apply]
  rfl

/-- Equal taps give equal outputs. -/
theorem mac_congr {z f0 f1 f2 f3 g0 g1 g2 g3 w0 w1 w2 w3 b : EReal} (h0 : f0 = g0) (h1 : f1 = g1) (h2 : f2 = g2) (h3 : f3 = g3) :
    mac z f0 f1 f2 f3 w0 w1 w2 w3 b = mac z g0 g1 g2 g3 w0 w1 w2 w3 b := by rw [h0, h1, h2, h3]

/-! ## The window -/

/-- Row `j` of the window at channel `ch`: a carried row for `j < 8`, row `j - 8` of the tile from there on. -/
def window (carry : S1x8x2048.Idx → EReal) (xt : S1x512x2048.Idx → EReal) (j : ℕ) (ch : Fin 2048) : EReal :=
  if h : j < 8 then carry (ix3 (0 : Fin 1) (⟨j, h⟩ : Fin 8) ch)
  else if h' : j - 8 < 512 then xt (ix3 (0 : Fin 1) (⟨j - 8, h'⟩ : Fin 512) ch) else 0

/-- A read of 512 window rows starting at row `o`, after the carried rows were stored at rows 0–7 and the tile at
    rows 8–519: row `r` of the read is window row `r + o`. -/
theorem win_read (v : View sig .tc .vmem S1x520x2048 .f32) (p6 : Vec Ideal S1x512x2048 .f32) (p5 : Vec Ideal S1x8x2048 .f32)
    (inb8 : ∀ a, (![0, 8, 0] : Fin 3 → ℕ) a + S1x512x2048.size a ≤ S1x520x2048.size a)
    (inb0 : ∀ a, (![0, 0, 0] : Fin 3 → ℕ) a + S1x8x2048.size a ≤ S1x520x2048.size a)
    (o : ℕ) (ho : o ≤ 8) (inbo : ∀ a, (![0, o, 0] : Fin 3 → ℕ) a + S1x512x2048.size a ≤ S1x520x2048.size a)
    (r : Fin 512) (ch : Fin 2048) :
    v.readCov [(⟨Rect.unit (s := S1x520x2048) ![0, 8, 0] S1x512x2048.size inb8, p6⟩ : View.Piece (Elt Ideal) S1x520x2048 .f32),
        ⟨Rect.unit (s := S1x520x2048) ![0, 0, 0] S1x8x2048.size inb0, p5⟩]
      (Rect.unit (s := S1x520x2048) ![0, o, 0] S1x512x2048.size inbo).toLoadRect (ix3 (0 : Fin 1) r ch) = window p5 p6 (r.val + o) ch := by
  refine (congrFun (View.readCov_eq_canon' v _ _) _).trans ?_
  show View.canon [(⟨Rect.unit (s := S1x520x2048) ![0, 8, 0] S1x512x2048.size inb8, p6⟩ : View.Piece (Elt Ideal) S1x520x2048 .f32),
        ⟨Rect.unit (s := S1x520x2048) ![0, 0, 0] S1x8x2048.size inb0, p5⟩]
      ((Rect.unit (s := S1x520x2048) ![0, o, 0] S1x512x2048.size inbo).toLoadRect.idx (ix3 (0 : Fin 1) r ch)) = _
  unfold window
  by_cases h : r.val + o < 8
  · rw [dif_pos h]
    have hnm : (Rect.unit (s := S1x520x2048) ![0, o, 0] S1x512x2048.size inbo).toLoadRect.idx (ix3 (0 : Fin 1) r ch)
        ∉ (Rect.unit (s := S1x520x2048) ![0, 8, 0] S1x512x2048.size inb8).set := by
      rw [Rect.mem_set_unit]; intro hm
      have h1 := (hm 1).1
      change 8 ≤ o + 1 * r.val at h1
      omega
    have e : (Rect.unit (s := S1x520x2048) ![0, o, 0] S1x512x2048.size inbo).toLoadRect.idx (ix3 (0 : Fin 1) r ch)
        = (Rect.unit (s := S1x520x2048) ![0, 0, 0] S1x8x2048.size inb0).emb (ix3 (0 : Fin 1) (⟨r.val + o, h⟩ : Fin 8) ch) :=
      funext fun a => Fin.ext (match a with
        | ⟨0, _⟩ => rfl
        | ⟨1, _⟩ => by show o + 1 * r.val = 0 + 1 * (r.val + o); omega
        | ⟨2, _⟩ => rfl)
    refine (View.canon_cons_of_not_mem
      (⟨Rect.unit (s := S1x520x2048) ![0, 8, 0] S1x512x2048.size inb8, p6⟩ : View.Piece (Elt Ideal) S1x520x2048 .f32)
      [(⟨Rect.unit (s := S1x520x2048) ![0, 0, 0] S1x8x2048.size inb0, p5⟩ : View.Piece (Elt Ideal) S1x520x2048 .f32)] hnm).trans ?_
    exact (congrArg (View.canon [(⟨Rect.unit (s := S1x520x2048) ![0, 0, 0] S1x8x2048.size inb0, p5⟩ : View.Piece (Elt Ideal) S1x520x2048 .f32)]) e).trans
      (View.canon_cons_emb (Rect.unit (s := S1x520x2048) ![0, 0, 0] S1x8x2048.size inb0) p5 [] (ix3 (0 : Fin 1) (⟨r.val + o, h⟩ : Fin 8) ch))
  · have h' : r.val + o - 8 < 512 := by have := r.isLt; omega
    rw [dif_neg h, dif_pos h']
    have e : (Rect.unit (s := S1x520x2048) ![0, o, 0] S1x512x2048.size inbo).toLoadRect.idx (ix3 (0 : Fin 1) r ch)
        = (Rect.unit (s := S1x520x2048) ![0, 8, 0] S1x512x2048.size inb8).emb (ix3 (0 : Fin 1) (⟨r.val + o - 8, h'⟩ : Fin 512) ch) :=
      funext fun a => Fin.ext (match a with
        | ⟨0, _⟩ => rfl
        | ⟨1, _⟩ => by show o + 1 * r.val = 8 + 1 * (r.val + o - 8); omega
        | ⟨2, _⟩ => rfl)
    exact (congrArg (View.canon [(⟨Rect.unit (s := S1x520x2048) ![0, 8, 0] S1x512x2048.size inb8, p6⟩ : View.Piece (Elt Ideal) S1x520x2048 .f32),
        ⟨Rect.unit (s := S1x520x2048) ![0, 0, 0] S1x8x2048.size inb0, p5⟩]) e).trans
      (View.canon_cons_emb (Rect.unit (s := S1x520x2048) ![0, 8, 0] S1x512x2048.size inb8) p6
        [(⟨Rect.unit (s := S1x520x2048) ![0, 0, 0] S1x8x2048.size inb0, p5⟩ : View.Piece (Elt Ideal) S1x520x2048 .f32)]
        (ix3 (0 : Fin 1) (⟨r.val + o - 8, h'⟩ : Fin 512) ch))

/-- The read of window rows 512–519 (what is carried on): the tile's last eight rows. -/
theorem win_tail (v : View sig .tc .vmem S1x520x2048 .f32) (p6 : Vec Ideal S1x512x2048 .f32) (p5 : Vec Ideal S1x8x2048 .f32)
    (inb8 : ∀ a, (![0, 8, 0] : Fin 3 → ℕ) a + S1x512x2048.size a ≤ S1x520x2048.size a)
    (inb0 : ∀ a, (![0, 0, 0] : Fin 3 → ℕ) a + S1x8x2048.size a ≤ S1x520x2048.size a)
    (inbt : ∀ a, (![0, 512, 0] : Fin 3 → ℕ) a + S1x8x2048.size a ≤ S1x520x2048.size a)
    (j : Fin 8) (ch : Fin 2048) :
    v.readCov [(⟨Rect.unit (s := S1x520x2048) ![0, 8, 0] S1x512x2048.size inb8, p6⟩ : View.Piece (Elt Ideal) S1x520x2048 .f32),
        ⟨Rect.unit (s := S1x520x2048) ![0, 0, 0] S1x8x2048.size inb0, p5⟩]
      (Rect.unit (s := S1x520x2048) ![0, 512, 0] S1x8x2048.size inbt).toLoadRect (ix3 (0 : Fin 1) j ch)
      = p6 (ix3 (0 : Fin 1) (⟨504 + j.val, by omega⟩ : Fin 512) ch) := by
  refine (congrFun (View.readCov_eq_canon' v _ _) _).trans ?_
  show View.canon [(⟨Rect.unit (s := S1x520x2048) ![0, 8, 0] S1x512x2048.size inb8, p6⟩ : View.Piece (Elt Ideal) S1x520x2048 .f32),
        ⟨Rect.unit (s := S1x520x2048) ![0, 0, 0] S1x8x2048.size inb0, p5⟩]
      ((Rect.unit (s := S1x520x2048) ![0, 512, 0] S1x8x2048.size inbt).toLoadRect.idx (ix3 (0 : Fin 1) j ch)) = _
  have e : (Rect.unit (s := S1x520x2048) ![0, 512, 0] S1x8x2048.size inbt).toLoadRect.idx (ix3 (0 : Fin 1) j ch)
      = (Rect.unit (s := S1x520x2048) ![0, 8, 0] S1x512x2048.size inb8).emb (ix3 (0 : Fin 1) (⟨504 + j.val, by omega⟩ : Fin 512) ch) :=
    funext fun a => Fin.ext (match a with
      | ⟨0, _⟩ => rfl
      | ⟨1, _⟩ => by show 512 + 1 * j.val = 8 + 1 * (504 + j.val); omega
      | ⟨2, _⟩ => rfl)
  exact (congrArg (View.canon [(⟨Rect.unit (s := S1x520x2048) ![0, 8, 0] S1x512x2048.size inb8, p6⟩ : View.Piece (Elt Ideal) S1x520x2048 .f32),
      ⟨Rect.unit (s := S1x520x2048) ![0, 0, 0] S1x8x2048.size inb0, p5⟩]) e).trans
    (View.canon_cons_emb (Rect.unit (s := S1x520x2048) ![0, 8, 0] S1x512x2048.size inb8) p6
      [(⟨Rect.unit (s := S1x520x2048) ![0, 0, 0] S1x8x2048.size inb0, p5⟩ : View.Piece (Elt Ideal) S1x520x2048 .f32)]
      (ix3 (0 : Fin 1) (⟨504 + j.val, by omega⟩ : Fin 512) ch))

end Cert.KernelIdeal.Tile

end
-- ==== Proof.KPieces.lean ====
/-
  The two cases of a grid point, read as values.

  At a batch's first tile the kernel sets the carried rows afresh (zero, the incoming state's entries 1, 2, 3 of each
  channel in rows 5, 6, 7) before it lays the window; at every other tile the carried rows are what the tile before
  left. In both cases the output block is the multiply-accumulate over the window and what is left in the carried rows
  is the tile's last eight rows.
-/
import proofs.«100175_j59760174956725_1_alg».proof.Proof.KTile

noncomputable section

namespace Cert.KernelIdeal.Tile

open Cert.KernelIdeal Cert.KernelIdeal.Gen Cert.CausalConv
open Idealize.ShloMosaic Idealize.ShloMosaic.TcCoe Idealize.ShloMosaic.ValueIdx Idealize.ShloMosaic.Tactic Idealize.SL.Sem

/-! ## The carried rows at a batch's first tile -/

/-- Row `j`, channel `ch` of the carried rows as the first tile of a batch sets them: entry `j - 4` of the incoming
    state for rows 5, 6, 7, zero above. -/
def initCarryAt (cs : S1x2048x4.Idx → EReal) (j : Fin 8) (ch : Fin 2048) : EReal :=
  if h : 5 ≤ j.val then cs (ix3 (0 : Fin 1) ch (⟨j.val - 4, by omega⟩ : Fin 4)) else Ideal.ofBits .f32 0x00000000#32

def initCarry (cs : S1x2048x4.Idx → EReal) : S1x8x2048.Idx → EReal := fun y => initCarryAt cs (y 1) (y 2)

/-- The three rows stored at rows 5–7: the state's entries 1, 2, 3, channels along the last axis. -/
theorem pay4_apply (x1 : Vec Ideal S1x2048x4 .f32) (q : Fin 3) (ch : Fin 2048) :
    k0_pay4 (F := Ideal) x1 (ix3 (0 : Fin 1) q ch) = x1 (ix3 (0 : Fin 1) ch (⟨q.val + 1, by omega⟩ : Fin 4)) := by
  simp only [k0_pay4, shapeCast_self]
  refine (transpose_apply [0, 2, 1] _ _ (ix3 (0 : Fin 1) q ch) (ix3 (0 : Fin 1) ch q) (fun b => match b with
    | ⟨0, _⟩ => rfl
    | ⟨1, _⟩ => rfl
    | ⟨2, _⟩ => rfl)).trans ?_
  exact extractStridedSlice_apply ![0, 0, 1] x1 _ (ix3 (0 : Fin 1) ch q) (ix3 (0 : Fin 1) ch (⟨q.val + 1, by omega⟩ : Fin 4)) (fun a => match a with
    | ⟨0, _⟩ => rfl
    | ⟨1, _⟩ => by show ch.val = 0 + ch.val; omega
    | ⟨2, _⟩ => by show q.val + 1 = 1 + q.val; omega)

/-- The zero rows stored first. -/
theorem pay3_apply (y : S1x8x2048.Idx) : k0_pay3 (F := Ideal) y = Ideal.ofBits .f32 0x00000000#32 := by
  simp only [k0_pay3, shapeCast_self, broadcast_apply]
  rfl

/-- A read of all eight carried rows after the zero rows were stored over all of them and three rows over rows 5–7. -/
theorem carryInit_read (v : View sig .tc .vmem S1x8x2048 .f32) (p4 : Vec Ideal S1x3x2048 .f32) (p3 : Vec Ideal S1x8x2048 .f32)
    (inb5 : ∀ a, (![0, 5, 0] : Fin 3 → ℕ) a + S1x3x2048.size a ≤ S1x8x2048.size a)
    (inb0 inb0' : ∀ a, (![0, 0, 0] : Fin 3 → ℕ) a + S1x8x2048.size a ≤ S1x8x2048.size a) (j : Fin 8) (ch : Fin 2048) :
    v.readCov [(⟨Rect.unit (s := S1x8x2048) ![0, 5, 0] S1x3x2048.size inb5, p4⟩ : View.Piece (Elt Ideal) S1x8x2048 .f32),
        ⟨Rect.unit (s := S1x8x2048) ![0, 0, 0] S1x8x2048.size inb0, p3⟩]
      (Rect.unit (s := S1x8x2048) ![0, 0, 0] S1x8x2048.size inb0').toLoadRect (ix3 (0 : Fin 1) j ch)
      = if h : 5 ≤ j.val then p4 (ix3 (0 : Fin 1) (⟨j.val - 5, by omega⟩ : Fin 3) ch) else p3 (ix3 (0 : Fin 1) j ch) := by
  refine (congrFun (View.readCov_eq_canon' v _ _) _).trans ?_
  show View.canon [(⟨Rect.unit (s := S1x8x2048) ![0, 5, 0] S1x3x2048.size inb5, p4⟩ : View.Piece (Elt Ideal) S1x8x2048 .f32),
        ⟨Rect.unit (s := S1x8x2048) ![0, 0, 0] S1x8x2048.size inb0, p3⟩]
      ((Rect.unit (s := S1x8x2048) ![0, 0, 0] S1x8x2048.size inb0').toLoadRect.idx (ix3 (0 : Fin 1) j ch)) = _
  by_cases h : 5 ≤ j.val
  · rw [dif_pos h]
    have e : (Rect.unit (s := S1x8x2048) ![0, 0, 0] S1x8x2048.size inb0').toLoadRect.idx (ix3 (0 : Fin 1) j ch)
        = (Rect.unit (s := S1x8x2048) ![0, 5, 0] S1x3x2048.size inb5).emb (ix3 (0 : Fin 1) (⟨j.val - 5, by omega⟩ : Fin 3) ch) :=
      funext fun a => Fin.ext (match a with
        | ⟨0, _⟩ => rfl
        | ⟨1, _⟩ => by show 0 + 1 * j.val = 5 + 1 * (j.val - 5); omega
        | ⟨2, _⟩ => rfl)
    exact (congrArg (View.canon [(⟨Rect.unit (s := S1x8x2048) ![0, 5, 0] S1x3x2048.size inb5, p4⟩ : View.Piece (Elt Ideal) S1x8x2048 .f32),
        ⟨Rect.unit (s := S1x8x2048) ![0, 0, 0] S1x8x2048.size inb0, p3⟩]) e).trans
      (View.canon_cons_emb (Rect.unit (s := S1x8x2048) ![0, 5, 0] S1x3x2048.size inb5) p4
        [(⟨Rect.unit (s := S1x8x2048) ![0, 0, 0] S1x8x2048.size inb0, p3⟩ : View.Piece (Elt Ideal) S1x8x2048 .f32)]
        (ix3 (0 : Fin 1) (⟨j.val - 5, by omega⟩ : Fin 3) ch))
  · rw [dif_neg h]
    have hnm : (Rect.unit (s := S1x8x2048) ![0, 0, 0] S1x8x2048.size inb0').toLoadRect.idx (ix3 (0 : Fin 1) j ch)
        ∉ (Rect.unit (s := S1x8x2048) ![0, 5, 0] S1x3x2048.size inb5).set := by
      rw [Rect.mem_set_unit]; intro hm
      have h1 := (hm 1).1
      change 5 ≤ 0 + 1 * j.val at h1
      omega
    have e : (Rect.unit (s := S1x8x2048) ![0, 0, 0] S1x8x2048.size inb0').toLoadRect.idx (ix3 (0 : Fin 1) j ch)
        = (Rect.unit (s := S1x8x2048) ![0, 0, 0] S1x8x2048.size inb0).emb (ix3 (0 : Fin 1) j ch) :=
      funext fun a => Fin.ext (match a with
        | ⟨0, _⟩ => rfl
        | ⟨1, _⟩ => rfl
        | ⟨2, _⟩ => rfl)
    refine (View.canon_cons_of_not_mem
      (⟨Rect.unit (s := S1x8x2048) ![0, 5, 0] S1x3x2048.size inb5, p4⟩ : View.Piece (Elt Ideal) S1x8x2048 .f32)
      [(⟨Rect.unit (s := S1x8x2048) ![0, 0, 0] S1x8x2048.size inb0, p3⟩ : View.Piece (Elt Ideal) S1x8x2048 .f32)] hnm).trans ?_
    exact (congrArg (View.canon [(⟨Rect.unit (s := S1x8x2048) ![0, 0, 0] S1x8x2048.size inb0, p3⟩ : View.Piece (Elt Ideal) S1x8x2048 .f32)]) e).trans
      (View.canon_cons_emb (Rect.unit (s := S1x8x2048) ![0, 0, 0] S1x8x2048.size inb0) p3 [] (ix3 (0 : Fin 1) j ch))

/-- So the carried rows the first tile of a batch lays in the window are `initCarry` of the state's block. -/
theorem carryA_eq (v : View sig .tc .vmem S1x8x2048 .f32) (x1 : Vec Ideal S1x2048x4 .f32)
    (inb5 : ∀ a, (![0, 5, 0] : Fin 3 → ℕ) a + S1x3x2048.size a ≤ S1x8x2048.size a)
    (inb0 inb0' : ∀ a, (![0, 0, 0] : Fin 3 → ℕ) a + S1x8x2048.size a ≤ S1x8x2048.size a) :
    v.readCov [(⟨Rect.unit (s := S1x8x2048) ![0, 5, 0] S1x3x2048.size inb5, k0_pay4 (F := Ideal) x1⟩ : View.Piece (Elt Ideal) S1x8x2048 .f32),
        ⟨Rect.unit (s := S1x8x2048) ![0, 0, 0] S1x8x2048.size inb0, k0_pay3 (F := Ideal)⟩]
      (Rect.unit (s := S1x8x2048) ![0, 0, 0] S1x8x2048.size inb0').toLoadRect = initCarry x1 := by
  funext y
  obtain ⟨z0, j, ch, rfl⟩ : ∃ (z0 : Fin 1) (j : Fin 8) (ch : Fin 2048), y = ix3 z0 j ch := ⟨y 0, y 1, y 2, eq_ix3 y⟩
  obtain rfl : z0 = 0 := Subsingleton.elim _ _
  refine (carryInit_read v _ _ inb5 inb0 inb0' j ch).trans ?_
  show _ = initCarryAt x1 j ch
  unfold initCarryAt
  by_cases h : 5 ≤ j.val
  · rw [dif_pos h, dif_pos h, pay4_apply]
    exact congrArg x1 (funext fun a => match a with
      | ⟨0, _⟩ => rfl
      | ⟨1, _⟩ => rfl
      | ⟨2, _⟩ => Fin.ext (by show j.val - 5 + 1 = j.val - 4; omega))
  · rw [dif_neg h, dif_neg h, pay3_apply]

/-! ## The cases' pieces as values -/

/-- Every tile but a batch's first: the output block over the window of the carried rows `xs0` and the tile `x0`. -/
theorem outB_apply (c : Dev nD) (i : grid0.Coords) (arg2 : Memref sig .tc .vmem S1x512x2048 .f32) (harg2 : arg2.IsWhole) (arg3 : Memref sig .tc .vmem S1x2048x4 .f32) (harg3 : arg3.IsWhole) (arg4 : Memref sig .tc .vmem S2048x4 .f32) (harg4 : arg4.IsWhole) (arg5 : Memref sig .tc .vmem S2048 .f32) (harg5 : arg5.IsWhole) (arg6 : Memref sig .tc .vmem S1x512x2048 .f32) (harg6 : arg6.IsWhole) (arg7 : Memref sig .tc .vmem S1x8x2048 .f32) (harg7 : arg7.IsWhole) (arg8 : Memref sig .tc .vmem S1x520x2048 .f32) (harg8 : arg8.IsWhole) (hc0 : ¬cond0_0 i)
    (x0 : Vec Ideal S1x512x2048 .f32) (x1 : Vec Ideal S1x2048x4 .f32) (x2 : Vec Ideal S2048x4 .f32) (x3 : Vec Ideal S2048 .f32)
    (xs0 : Vec Ideal S1x8x2048 .f32) (r : Fin 512) (ch : Fin 2048) :
    out0_B_4 (F := Ideal) c i arg2 harg2 arg3 harg3 arg4 harg4 arg5 harg5 arg6 harg6 arg7 harg7 arg8 harg8 hc0 x0 x1 x2 x3 xs0 (ix3 (0 : Fin 1) r ch)
      = mac (Ideal.ofBits .f32 0x00000000#32) (window xs0 x0 (r.val + 5) ch) (window xs0 x0 (r.val + 6) ch)
          (window xs0 x0 (r.val + 7) ch) (window xs0 x0 (r.val + 8) ch)
          (x2 (ix2 ch 0)) (x2 (ix2 ch 1)) (x2 (ix2 ch 2)) (x2 (ix2 ch 3)) (x3 (ix1 ch)) := by
  unfold out0_B_4
  rw [View.read_writes_eq_canon _ _ _ (cover0_B_4 c i arg2 harg2 arg3 harg3 arg4 harg4 arg5 harg5 arg6 harg6 arg7 harg7 arg8 harg8 hc0 x0 x1 x2 x3 xs0)]
  unfold kernelRun0_B
  dsimp only
  sl_unfold_words
  rw [View.canon_unit_zero hz3]
  simp only [View.readAt_eq_ld, harg2.read_unread, harg4.read_unread, harg5.read_unread, harg7.read_unread,
    View.ld_unit_zero (S := S1x512x2048) hz3, View.ld_unit_zero (S := S2048x4) hz2, View.ld_unit_zero (S := S2048) hz1,
    View.ld_unit_zero (S := S1x8x2048) hz3, k0_pay5, k0_pay6, shapeCast_self]
  refine (pay1_apply _ _ _ _ _ _ r ch).trans ?_
  exact mac_congr (win_read _ _ _ _ _ 5 (by omega) _ r ch) (win_read _ _ _ _ _ 6 (by omega) _ r ch)
    (win_read _ _ _ _ _ 7 (by omega) _ r ch) (win_read _ _ _ _ _ 8 (by omega) _ r ch)

/-- and what it leaves in the carried rows: the tile's last eight rows. -/
theorem soutB_apply (c : Dev nD) (i : grid0.Coords) (arg2 : Memref sig .tc .vmem S1x512x2048 .f32) (harg2 : arg2.IsWhole) (arg3 : Memref sig .tc .vmem S1x2048x4 .f32) (harg3 : arg3.IsWhole) (arg4 : Memref sig .tc .vmem S2048x4 .f32) (harg4 : arg4.IsWhole) (arg5 : Memref sig .tc .vmem S2048 .f32) (harg5 : arg5.IsWhole) (arg6 : Memref sig .tc .vmem S1x512x2048 .f32) (harg6 : arg6.IsWhole) (arg7 : Memref sig .tc .vmem S1x8x2048 .f32) (harg7 : arg7.IsWhole) (arg8 : Memref sig .tc .vmem S1x520x2048 .f32) (harg8 : arg8.IsWhole) (hc0 : ¬cond0_0 i)
    (x0 : Vec Ideal S1x512x2048 .f32) (x1 : Vec Ideal S1x2048x4 .f32) (x2 : Vec Ideal S2048x4 .f32) (x3 : Vec Ideal S2048 .f32)
    (xs0 : Vec Ideal S1x8x2048 .f32) (j : Fin 8) (ch : Fin 2048) :
    sout0_B_0 (F := Ideal) c i arg2 harg2 arg3 harg3 arg4 harg4 arg5 harg5 arg6 harg6 arg7 harg7 arg8 harg8 hc0 x0 x1 x2 x3 xs0 (ix3 (0 : Fin 1) j ch)
      = x0 (ix3 (0 : Fin 1) (⟨504 + j.val, by omega⟩ : Fin 512) ch) := by
  unfold sout0_B_0
  rw [View.read_writes_eq_canon _ _ _ (scover0_B_0 c i arg2 harg2 arg3 harg3 arg4 harg4 arg5 harg5 arg6 harg6 arg7 harg7 arg8 harg8 hc0 x0 x1 x2 x3 xs0)]
  unfold kernelRun0_B
  dsimp only
  sl_unfold_words
  rw [View.canon_unit_zero hz3]
  simp only [View.readAt_eq_ld, harg2.read_unread, harg7.read_unread,
    View.ld_unit_zero (S := S1x512x2048) hz3, View.ld_unit_zero (S := S1x8x2048) hz3, k0_pay2, k0_pay5, k0_pay6, shapeCast_self]
  exact win_tail _ _ _ _ _ _ j ch

/-- A batch's first tile: the output block over the window of the fresh carried rows and the tile `x0`. -/
theorem outA_apply (c : Dev nD) (i : grid0.Coords) (arg2 : Memref sig .tc .vmem S1x512x2048 .f32) (harg2 : arg2.IsWhole) (arg3 : Memref sig .tc .vmem S1x2048x4 .f32) (harg3 : arg3.IsWhole) (arg4 : Memref sig .tc .vmem S2048x4 .f32) (harg4 : arg4.IsWhole) (arg5 : Memref sig .tc .vmem S2048 .f32) (harg5 : arg5.IsWhole) (arg6 : Memref sig .tc .vmem S1x512x2048 .f32) (harg6 : arg6.IsWhole) (arg7 : Memref sig .tc .vmem S1x8x2048 .f32) (harg7 : arg7.IsWhole) (arg8 : Memref sig .tc .vmem S1x520x2048 .f32) (harg8 : arg8.IsWhole) (hc0 : cond0_0 i)
    (x0 : Vec Ideal S1x512x2048 .f32) (x1 : Vec Ideal S1x2048x4 .f32) (x2 : Vec Ideal S2048x4 .f32) (x3 : Vec Ideal S2048 .f32)
    (r : Fin 512) (ch : Fin 2048) :
    out0_A_4 (F := Ideal) c i arg2 harg2 arg3 harg3 arg4 harg4 arg5 harg5 arg6 harg6 arg7 harg7 arg8 harg8 hc0 x0 x1 x2 x3 (ix3 (0 : Fin 1) r ch)
      = mac (Ideal.ofBits .f32 0x00000000#32) (window (initCarry x1) x0 (r.val + 5) ch) (window (initCarry x1) x0 (r.val + 6) ch)
          (window (initCarry x1) x0 (r.val + 7) ch) (window (initCarry x1) x0 (r.val + 8) ch)
          (x2 (ix2 ch 0)) (x2 (ix2 ch 1)) (x2 (ix2 ch 2)) (x2 (ix2 ch 3)) (x3 (ix1 ch)) := by
  unfold out0_A_4
  rw [View.read_writes_eq_canon _ _ _ (cover0_A_4 c i arg2 harg2 arg3 harg3 arg4 harg4 arg5 harg5 arg6 harg6 arg7 harg7 arg8 harg8 hc0 x0 x1 x2 x3)]
  unfold kernelRun0_A
  dsimp only
  sl_unfold_words
  rw [View.canon_unit_zero hz3]
  simp only [View.readAt_eq_ld, harg2.read_unread, harg3.read_unread, harg4.read_unread, harg5.read_unread,
    View.ld_unit_zero (S := S1x512x2048) hz3, View.ld_unit_zero (S := S2048x4) hz2, View.ld_unit_zero (S := S2048) hz1,
    View.ld_unit_zero (S := S1x2048x4) hz3, k0_pay5, k0_pay6, shapeCast_self]
  refine (pay1_apply _ _ _ _ _ _ r ch).trans ?_
  exact mac_congr
    ((win_read _ _ _ _ _ 5 (by omega) _ r ch).trans (congrArg (fun C => window C x0 (r.val + 5) ch) (carryA_eq _ x1 _ _ _)))
    ((win_read _ _ _ _ _ 6 (by omega) _ r ch).trans (congrArg (fun C => window C x0 (r.val + 6) ch) (carryA_eq _ x1 _ _ _)))
    ((win_read _ _ _ _ _ 7 (by omega) _ r ch).trans (congrArg (fun C => window C x0 (r.val + 7) ch) (carryA_eq _ x1 _ _ _)))
    ((win_read _ _ _ _ _ 8 (by omega) _ r ch).trans (congrArg (fun C => window C x0 (r.val + 8) ch) (carryA_eq _ x1 _ _ _)))

/-- and what it leaves in the carried rows: again the tile's last eight rows. -/
theorem soutA_apply (c : Dev nD) (i : grid0.Coords) (arg2 : Memref sig .tc .vmem S1x512x2048 .f32) (harg2 : arg2.IsWhole) (arg3 : Memref sig .tc .vmem S1x2048x4 .f32) (harg3 : arg3.IsWhole) (arg4 : Memref sig .tc .vmem S2048x4 .f32) (harg4 : arg4.IsWhole) (arg5 : Memref sig .tc .vmem S2048 .f32) (harg5 : arg5.IsWhole) (arg6 : Memref sig .tc .vmem S1x512x2048 .f32) (harg6 : arg6.IsWhole) (arg7 : Memref sig .tc .vmem S1x8x2048 .f32) (harg7 : arg7.IsWhole) (arg8 : Memref sig .tc .vmem S1x520x2048 .f32) (harg8 : arg8.IsWhole) (hc0 : cond0_0 i)
    (x0 : Vec Ideal S1x512x2048 .f32) (x1 : Vec Ideal S1x2048x4 .f32) (x2 : Vec Ideal S2048x4 .f32) (x3 : Vec Ideal S2048 .f32)
    (j : Fin 8) (ch : Fin 2048) :
    sout0_A_0 (F := Ideal) c i arg2 harg2 arg3 harg3 arg4 harg4 arg5 harg5 arg6 harg6 arg7 harg7 arg8 harg8 hc0 x0 x1 x2 x3 (ix3 (0 : Fin 1) j ch)
      = x0 (ix3 (0 : Fin 1) (⟨504 + j.val, by omega⟩ : Fin 512) ch) := by
  unfold sout0_A_0
  rw [View.read_writes_eq_canon _ _ _ (scover0_A_0 c i arg2 harg2 arg3 harg3 arg4 harg4 arg5 harg5 arg6 harg6 arg7 harg7 arg8 harg8 hc0 x0 x1 x2 x3)]
  unfold kernelRun0_A
  dsimp only
  sl_unfold_words
  rw [View.canon_cons_unit_zero (S := S1x8x2048) hz3]
  simp only [View.readAt_eq_ld, harg2.read_unread, harg3.read_unread,
    View.ld_unit_zero (S := S1x512x2048) hz3, View.ld_unit_zero (S := S1x2048x4) hz3, k0_pay2, k0_pay5, k0_pay6, shapeCast_self]
  exact win_tail _ _ _ _ _ _ j ch

end Cert.KernelIdeal.Tile

end
-- ==== Proof.KPoints.lean ====
/-
  The kernel's grid, point by point, and the array it leaves.

  The grid runs over the four batches and, inside a batch, over the eight tiles of 512 time steps: point `t` is tile
  `t % 8` of batch `t / 8`. Every point leaves the last eight rows of its tile in the carried rows, so at a tile that is
  not a batch's first the window's rows 5, 6, 7 are the three time steps before the tile's first; at a batch's first
  tile they are the incoming state's entries 1, 2, 3. Either way window row `r + 5 + k` is entry `512·(t % 8) + r + k`
  of the padded sequence, and output row `r` of the tile is the convolution at time `512·(t % 8) + r`. The tiles are
  written back one block each and the blocks tile the output array.
-/
import proofs.«100175_j59760174956725_1_alg».proof.Proof.KPieces

noncomputable section

namespace Cert.KernelIdeal.ConvValue

open Cert.KernelIdeal Cert.KernelIdeal.Gen Cert.KernelIdeal.Tile Cert.CausalConv
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The four arguments as arrays. -/
abbrev xArr (c : Dev nD) : SX.Idx → EReal := m ((c : Thread nD τ).loc main_arg0)
abbrev stArr (c : Dev nD) : SState.Idx → EReal := m ((c : Thread nD τ).loc main_arg1)
abbrev wArr (c : Dev nD) : SWeight.Idx → EReal := m ((c : Thread nD τ).loc main_arg2)
abbrev bArr (c : Dev nD) : SBias.Idx → EReal := m ((c : Thread nD τ).loc main_arg3)

/-- The blocks the body finds at point `t`: the input's tile, the state of the tile's batch, the weights, the bias. -/
abbrev xblk (c : Dev nD) (t : Fin cfg0.N) : Vec Ideal S1x512x2048 .f32 := iblk m c 0 t
abbrev sblk (c : Dev nD) (t : Fin cfg0.N) : Vec Ideal S1x2048x4 .f32 := iblk m c 1 t
abbrev wblk (c : Dev nD) (t : Fin cfg0.N) : Vec Ideal S2048x4 .f32 := iblk m c 2 t
abbrev bblk (c : Dev nD) (t : Fin cfg0.N) : Vec Ideal S2048 .f32 := iblk m c 3 t

theorem t_lt (t : Fin cfg0.N) : t.val < 32 := lt_of_lt_of_eq t.isLt (show cfg0.N = 32 from N_0)

/-- The index maps over the grid: batch `t / 8`, tile `t % 8`. -/
theorem idx_facts : ∀ t : Fin cfg0.N,
    win0_0.index t (0 : Fin 3) = t.val / 8 ∧ win0_0.index t (1 : Fin 3) = t.val % 8 ∧ win0_0.index t (2 : Fin 3) = 0
    ∧ win0_1.index t (0 : Fin 3) = t.val / 8 ∧ win0_1.index t (1 : Fin 3) = 0 ∧ win0_1.index t (2 : Fin 3) = 0
    ∧ win0_2.index t (0 : Fin 2) = 0 ∧ win0_2.index t (1 : Fin 2) = 0
    ∧ win0_3.index t (0 : Fin 1) = 0
    ∧ win0_4.index t (0 : Fin 3) = t.val / 8 ∧ win0_4.index t (1 : Fin 3) = t.val % 8 ∧ win0_4.index t (2 : Fin 3) = 0 :=
  (by decide +kernel : ∀ t : Fin grid0.N, _)

/-! ## The blocks, read off the arrays -/

theorem xblk_apply (c : Dev nD) (t : Fin cfg0.N) (r : Fin 512) (ch : Fin 2048) :
    xblk m c t (ix3 (0 : Fin 1) r ch)
      = xArr m c (ix3 (⟨t.val / 8, by have := t_lt t; omega⟩ : Fin 4) (⟨t.val % 8 * 512 + r.val, by omega⟩ : Fin 4096) ch) := by
  obtain ⟨e0, e1, e2, -⟩ := idx_facts t
  show m ((c : Thread nD τ).loc main_arg0) (((cfg0.win 0).blk t).view.emb (ix3 (0 : Fin 1) r ch)) = _
  refine congrArg (m ((c : Thread nD τ).loc main_arg0)) (funext fun a => Fin.ext ?_)
  match a with
  | ⟨0, _⟩ => show win0_0.index t (0 : Fin 3) * 1 + 1 * 0 = t.val / 8; omega
  | ⟨1, _⟩ => show win0_0.index t (1 : Fin 3) * 512 + 1 * r.val = t.val % 8 * 512 + r.val; omega
  | ⟨2, _⟩ => show win0_0.index t (2 : Fin 3) * 2048 + 1 * ch.val = ch.val; omega

theorem sblk_apply (c : Dev nD) (t : Fin cfg0.N) (ch : Fin 2048) (k : Fin 4) :
    sblk m c t (ix3 (0 : Fin 1) ch k) = stArr m c (ix3 (⟨t.val / 8, by have := t_lt t; omega⟩ : Fin 4) ch k) := by
  obtain ⟨-, -, -, e0, e1, e2, -⟩ := idx_facts t
  show m ((c : Thread nD τ).loc main_arg1) (((cfg0.win 1).blk t).view.emb (ix3 (0 : Fin 1) ch k)) = _
  refine congrArg (m ((c : Thread nD τ).loc main_arg1)) (funext fun a => Fin.ext ?_)
  match a with
  | ⟨0, _⟩ => show win0_1.index t (0 : Fin 3) * 1 + 1 * 0 = t.val / 8; omega
  | ⟨1, _⟩ => show win0_1.index t (1 : Fin 3) * 2048 + 1 * ch.val = ch.val; omega
  | ⟨2, _⟩ => show win0_1.index t (2 : Fin 3) * 4 + 1 * k.val = k.val; omega

theorem wblk_apply (c : Dev nD) (t : Fin cfg0.N) (ch : Fin 2048) (k : Fin 4) :
    wblk m c t (ix2 ch k) = wArr m c (ix2 ch k) := by
  obtain ⟨-, -, -, -, -, -, e0, e1, -⟩ := idx_facts t
  show m ((c : Thread nD τ).loc main_arg2) (((cfg0.win 2).blk t).view.emb (ix2 ch k)) = _
  refine congrArg (m ((c : Thread nD τ).loc main_arg2)) (funext fun a => Fin.ext ?_)
  match a with
  | ⟨0, _⟩ => show win0_2.index t (0 : Fin 2) * 2048 + 1 * ch.val = ch.val; omega
  | ⟨1, _⟩ => show win0_2.index t (1 : Fin 2) * 4 + 1 * k.val = k.val; omega

theorem bblk_apply (c : Dev nD) (t : Fin cfg0.N) (ch : Fin 2048) :
    bblk m c t (ix1 ch) = bArr m c (ix1 ch) := by
  obtain ⟨-, -, -, -, -, -, -, -, e0, -⟩ := idx_facts t
  show m ((c : Thread nD τ).loc main_arg3) (((cfg0.win 3).blk t).view.emb (ix1 ch)) = _
  refine congrArg (m ((c : Thread nD τ).loc main_arg3)) (funext fun a => Fin.ext ?_)
  match a with
  | ⟨0, _⟩ => show win0_3.index t (0 : Fin 1) * 2048 + 1 * ch.val = ch.val; omega

/-! ## What each point leaves -/

/-- After ANY point the carried rows are the last eight rows of the point's tile. -/
theorem carry_after (c : Dev nD) (t : Fin cfg0.N) (j : Fin 8) (ch : Fin 2048) :
    (outsAt0 m c t.val t.isLt).2 (ix3 (0 : Fin 1) j ch) = xblk m c t (ix3 (0 : Fin 1) (⟨504 + j.val, by omega⟩ : Fin 512) ch) := by
  by_cases h0 : t.val % 8 = 0
  · rw [outsAt0_A m c t h0]
    dsimp only
    exact soutA_apply c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (xblk m c t) (sblk m c t) (wblk m c t) (bblk m c t) j ch
  · rw [outsAt0_B m c t h0]
    dsimp only
    exact soutB_apply c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (xblk m c t) (sblk m c t) (wblk m c t) (bblk m c t) (outsAt0 m c (t.val - 1) (Nat.lt_of_le_of_lt (Nat.sub_le _ _) t.isLt)).2 j ch

/-- A row of the window at or past row 8 is a row of the tile: entry `512·(t % 8) + r + k` of the padded sequence. -/
theorem tap_tile (c : Dev nD) (t : Fin cfg0.N) (carry : S1x8x2048.Idx → EReal) (r : Fin 512) (ch : Fin 2048) (k : ℕ) (hk : k < 4)
    (hge : ¬ r.val + (k + 5) < 8) :
    window carry (xblk m c t) (r.val + (k + 5)) ch
      = padded (xArr m c) (stArr m c) (⟨t.val / 8, by have := t_lt t; omega⟩ : Fin 4) ch (t.val % 8 * 512 + r.val + k) := by
  have ht := t_lt t
  have hr := r.isLt
  unfold window padded
  have h3 : ¬ t.val % 8 * 512 + r.val + k < 3 := by omega
  have h8 : r.val + (k + 5) - 8 < 512 := by omega
  have h4 : t.val % 8 * 512 + r.val + k - 3 < 4096 := by omega
  rw [dif_neg hge, dif_pos h8, dif_neg h3, dif_pos h4]
  refine (xblk_apply m c t _ ch).trans ?_
  exact congrArg (xArr m c) (funext fun a => match a with
    | ⟨0, _⟩ => rfl
    | ⟨1, _⟩ => Fin.ext (by show t.val % 8 * 512 + (r.val + (k + 5) - 8) = t.val % 8 * 512 + r.val + k - 3; omega)
    | ⟨2, _⟩ => rfl)

/-- At a batch's first tile: window row `r + 5 + k` is entry `r + k` of the padded sequence. -/
theorem tapA (c : Dev nD) (t : Fin cfg0.N) (h0 : t.val % 8 = 0) (r : Fin 512) (ch : Fin 2048) (k : ℕ) (hk : k < 4) :
    window (initCarry (sblk m c t)) (xblk m c t) (r.val + (k + 5)) ch
      = padded (xArr m c) (stArr m c) (⟨t.val / 8, by have := t_lt t; omega⟩ : Fin 4) ch (t.val % 8 * 512 + r.val + k) := by
  by_cases hlt : r.val + (k + 5) < 8
  · have h3 : t.val % 8 * 512 + r.val + k < 3 := by omega
    unfold window padded
    rw [dif_pos hlt, dif_pos h3]
    show initCarryAt (sblk m c t) (⟨r.val + (k + 5), hlt⟩ : Fin 8) ch = _
    have h5 : 5 ≤ ((⟨r.val + (k + 5), hlt⟩ : Fin 8)).val := by show 5 ≤ r.val + (k + 5); omega
    unfold initCarryAt
    rw [dif_pos h5]
    refine (sblk_apply m c t ch _).trans ?_
    exact congrArg (stArr m c) (funext fun a => match a with
      | ⟨0, _⟩ => rfl
      | ⟨1, _⟩ => rfl
      | ⟨2, _⟩ => Fin.ext (by show r.val + (k + 5) - 4 = t.val % 8 * 512 + r.val + k + 1; omega))
  · exact tap_tile m c t _ r ch k hk hlt

/-- At any other tile: window row `r + 5 + k` below row 8 is a carried row, one of the last three time steps of the
    tile before; entry `512·(t % 8) + r + k` of the padded sequence again. -/
theorem tapB (c : Dev nD) (t : Fin cfg0.N) (h0 : ¬ t.val % 8 = 0) (r : Fin 512) (ch : Fin 2048) (k : ℕ) (hk : k < 4) :
    window (outsAt0 m c (t.val - 1) (Nat.lt_of_le_of_lt (Nat.sub_le _ _) t.isLt)).2 (xblk m c t) (r.val + (k + 5)) ch
      = padded (xArr m c) (stArr m c) (⟨t.val / 8, by have := t_lt t; omega⟩ : Fin 4) ch (t.val % 8 * 512 + r.val + k) := by
  have ht := t_lt t
  by_cases hlt : r.val + (k + 5) < 8
  · have h3 : ¬ t.val % 8 * 512 + r.val + k < 3 := by omega
    have h4 : t.val % 8 * 512 + r.val + k - 3 < 4096 := by omega
    unfold window padded
    rw [dif_pos hlt, dif_neg h3, dif_pos h4]
    have hp : t.val - 1 < cfg0.N := Nat.lt_of_le_of_lt (Nat.sub_le _ _) t.isLt
    refine (carry_after m c (⟨t.val - 1, hp⟩ : Fin cfg0.N) (⟨r.val + (k + 5), hlt⟩ : Fin 8) ch).trans ?_
    refine (xblk_apply m c (⟨t.val - 1, hp⟩ : Fin cfg0.N) _ ch).trans ?_
    exact congrArg (xArr m c) (funext fun a => match a with
      | ⟨0, _⟩ => Fin.ext (by show (t.val - 1) / 8 = t.val / 8; omega)
      | ⟨1, _⟩ => Fin.ext (by show (t.val - 1) % 8 * 512 + (504 + (r.val + (k + 5))) = t.val % 8 * 512 + r.val + k - 3; omega)
      | ⟨2, _⟩ => rfl)
  · exact tap_tile m c t _ r ch k hk hlt

/-- THE OUTPUT BLOCK of point `t` at row `r`, channel `ch`: the convolution at batch `t / 8`, time `512·(t % 8) + r`. -/
theorem out_after (c : Dev nD) (t : Fin cfg0.N) (r : Fin 512) (ch : Fin 2048) :
    (outsAt0 m c t.val t.isLt).1 (ix3 (0 : Fin 1) r ch)
      = convAt (xArr m c) (stArr m c) (wArr m c) (bArr m c) (⟨t.val / 8, by have := t_lt t; omega⟩ : Fin 4)
          (⟨t.val % 8 * 512 + r.val, by omega⟩ : Fin 4096) ch := by
  unfold convAt
  by_cases h0 : t.val % 8 = 0
  · rw [outsAt0_A m c t h0]
    dsimp only
    refine (outA_apply c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (xblk m c t) (sblk m c t) (wblk m c t) (bblk m c t) r ch).trans ?_
    rw [wblk_apply, wblk_apply, wblk_apply, wblk_apply, bblk_apply]
    exact mac_congr (tapA m c t h0 r ch 0 (by omega)) (tapA m c t h0 r ch 1 (by omega)) (tapA m c t h0 r ch 2 (by omega))
      (tapA m c t h0 r ch 3 (by omega))
  · rw [outsAt0_B m c t h0]
    dsimp only
    refine (outB_apply c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (xblk m c t) (sblk m c t) (wblk m c t) (bblk m c t) (outsAt0 m c (t.val - 1) (Nat.lt_of_le_of_lt (Nat.sub_le _ _) t.isLt)).2 r ch).trans ?_
    rw [wblk_apply, wblk_apply, wblk_apply, wblk_apply, bblk_apply]
    exact mac_congr (tapB m c t h0 r ch 0 (by omega)) (tapB m c t h0 r ch 1 (by omega)) (tapB m c t h0 r ch 2 (by omega))
      (tapB m c t h0 r ch 3 (by omega))

/-- The same at any index of the block. -/
theorem out_block (c : Dev nD) (t : Fin cfg0.N) (y : S1x512x2048.Idx) :
    (outsAt0 m c t.val t.isLt).1 y
      = conv (xArr m c) (stArr m c) (wArr m c) (bArr m c)
          (ix3 (⟨t.val / 8, by have := t_lt t; omega⟩ : Fin 4)
            (⟨t.val % 8 * 512 + (y 1).val, by have h : (y 1).val < 512 := (y 1).isLt; omega⟩ : Fin 4096)
            (⟨(y 2).val, (y 2).isLt⟩ : Fin 2048)) := by
  obtain ⟨z0, r, ch, rfl⟩ : ∃ (z0 : Fin 1) (r : Fin 512) (ch : Fin 2048), y = ix3 z0 r ch := ⟨y 0, y 1, y 2, eq_ix3 y⟩
  obtain rfl : z0 = 0 := Subsingleton.elim _ _
  exact out_after m c t r ch

/-! ## The output array -/

/-- WHAT POINT `t` WRITES BACK is block `t` of the convolution of the argument arrays. -/
theorem flushed_eq (c : Dev nD) (t : Fin cfg0.N) :
    (dats m 0 c).flushed 4 t = ((cfg0.win 4).blk t).view.read (Elt Ideal) (conv (xArr m c) (stArr m c) (wArr m c) (bArr m c)) := by
  obtain ⟨-, -, -, -, -, -, -, -, -, e0, e1, e2⟩ := idx_facts t
  show (cfg0.win 4).cut (grid0.coords t) ((dats m 0 c).after 4 t) = _
  rw [after0_4]
  funext y
  show (outsAt0 m c t.val t.isLt).1 y = conv (xArr m c) (stArr m c) (wArr m c) (bArr m c) (((cfg0.win 4).blk t).view.emb y)
  refine (out_block m c t y).trans (congrArg (conv (xArr m c) (stArr m c) (wArr m c) (bArr m c)) (funext fun a => Fin.ext ?_))
  match a with
  | ⟨0, _⟩ => show t.val / 8 = win0_4.index t (0 : Fin 3) * 1 + 1 * (y 0).val; have h : (y 0).val < 1 := (y 0).isLt; omega
  | ⟨1, _⟩ => show t.val % 8 * 512 + (y 1).val = win0_4.index t (1 : Fin 3) * 512 + 1 * (y 1).val; omega
  | ⟨2, _⟩ => show (y 2).val = win0_4.index t (2 : Fin 3) * 2048 + 1 * (y 2).val; omega

/-- An index of the output array is in point `t`'s block iff each coordinate is in the block's range on its axis. -/
theorem mem_blk (t : Fin cfg0.N) (i : S4x4096x2048.Idx) :
    i ∈ ((cfg0.win 4).blk t).view.set ↔ ∀ a : Fin 3, win0_4.index t a * S1x512x2048.size a ≤ (i a).val
      ∧ (i a).val < win0_4.index t a * S1x512x2048.size a + S1x512x2048.size a := by
  show i ∈ ((View.whole main_v0).slice (win0_4.rect t)).set ↔ _
  rw [View.set_slice_whole, Rect.mem_set_unit]
  exact Iff.rfl

/-- THE OUTPUT ARRAY after the run: the convolution of the argument arrays. Time `s` of batch `b` is in the block of
    point `8·b + s / 512`. -/
theorem final_conv (c : Dev nD) : (dats m 0 c).arrAt 4 cfg0.N = conv (xArr m c) (stArr m c) (wArr m c) (bArr m c) :=
  (dats m 0 c).arrAt_eq_of_cover 4 (conv (xArr m c) (stArr m c) (wArr m c) (bArr m c)) (fun t _ => flushed_eq m c t) fun i => by
    have h0 : (i 0 : Nat) < 4 := (i 0).isLt
    have h1 : (i 1 : Nat) < 4096 := (i 1).isLt
    have h2 : (i 2 : Nat) < 2048 := (i 2).isLt
    have hN : cfg0.N = 32 := N_0
    have hp : (i 0 : Nat) * 8 + (i 1 : Nat) / 512 < cfg0.N := by rw [hN]; omega
    obtain ⟨-, -, -, -, -, -, -, -, -, e0, e1, e2⟩ := idx_facts (⟨(i 0 : Nat) * 8 + (i 1 : Nat) / 512, hp⟩ : Fin cfg0.N)
    refine ⟨(⟨(i 0 : Nat) * 8 + (i 1 : Nat) / 512, hp⟩ : Fin cfg0.N), flush0_4 _, ?_⟩
    rw [mem_blk]
    intro a
    match a with
    | ⟨0, _⟩ =>
      show win0_4.index _ (0 : Fin 3) * 1 ≤ (i 0 : Nat) ∧ (i 0 : Nat) < win0_4.index _ (0 : Fin 3) * 1 + 1
      rw [e0]; show ((i 0 : Nat) * 8 + (i 1 : Nat) / 512) / 8 * 1 ≤ (i 0 : Nat) ∧ (i 0 : Nat) < ((i 0 : Nat) * 8 + (i 1 : Nat) / 512) / 8 * 1 + 1; omega
    | ⟨1, _⟩ =>
      show win0_4.index _ (1 : Fin 3) * 512 ≤ (i 1 : Nat) ∧ (i 1 : Nat) < win0_4.index _ (1 : Fin 3) * 512 + 512
      rw [e1]; show ((i 0 : Nat) * 8 + (i 1 : Nat) / 512) % 8 * 512 ≤ (i 1 : Nat) ∧ (i 1 : Nat) < ((i 0 : Nat) * 8 + (i 1 : Nat) / 512) % 8 * 512 + 512; omega
    | ⟨2, _⟩ =>
      show win0_4.index _ (2 : Fin 3) * 2048 ≤ (i 2 : Nat) ∧ (i 2 : Nat) < win0_4.index _ (2 : Fin 3) * 2048 + 2048
      rw [e2]; omega

end Cert.KernelIdeal.ConvValue

end
-- ==== Proof.KRun.lean ====
/-
  The kernel's run, read: its two result arrays as functions of the arguments.

  The first result is the output array the grid leaves: the convolution. The second is computed after the grid by two
  host operations on the input, which the grid does not change: the last four time steps of every batch, then time and
  channel exchanged; entry (batch, channel, slot `k`) is the input at time `4092 + k`: the trailing state.
-/
import proofs.«100175_j59760174956725_1_alg».proof.Proof.KPoints
import Idealize.ShloMosaic.Lib.StableHlo.Run

noncomputable section

namespace Cert.KernelIdeal.ConvValue

open Cert.KernelIdeal Cert.KernelIdeal.Gen Cert.KernelIdeal.Tile Cert.CausalConv
open Idealize.ShloMosaic Idealize.ShloMosaic.TcCoe Idealize.ShloMosaic.ValueIdx Idealize.SL.Sem Idealize.ShloMosaic.StableHlo
open Idealize.ShloMosaic.Pipeline (Dat)

variable (m : (ℓ : Loc nD τ sig) → Buf (Elt Ideal) ℓ) (ρ : Dev nD → PrngReg)

/-- An argument array after the grid is the argument: the grid only reads it. -/
theorem kept (c : Dev nD) (w : Fin cfg0.W) (hw : (cfg0.win w).isOut = false) :
    (dats m 0 c).arrAt w cfg0.N = V m c (Pipeline.arrRef spec0 w) :=
  ((dats m 0 c).arrAt_in w hw _).trans (A_eq m c w)

/-- The input as the operations after the grid find it. -/
theorem tail_x (c : Dev nD) :
    Pipeline.withArrays (cfgs 0).spec c (V0 m c) (fun w => (dats m 0 c).arrAt w (cfgs 0).N) (Proc.devRef .tc main_arg0) = xArr m c :=
  (Pipeline.withArrays_arr spec0 launch0.win.arr_inj c _ _ 0).trans ((kept m c 0 rfl).trans (V_main_arg0 m c))

/-- The second result: the trailing state of the input. -/
theorem tail_state (c : Dev nD) :
    Pipeline.afterTail₀ cfgs (dats m) 0 (V0 m) [hostOps1] c main_v2 = lastFour (xArr m c) := by
  unfold Pipeline.afterTail₀
  show StableHlo.after hostOps1 _ (Proc.devRef .tc main_v2) = _
  after_results
  funext i
  obtain ⟨b, ch, k, rfl⟩ : ∃ (b : Fin 4) (ch : Fin 2048) (k : Fin 4), i = ix3 b ch k := ⟨i 0, i 1, i 2, eq_ix3 i⟩
  refine (transpose_apply [0, 2, 1] _ _ (ix3 b ch k) (ix3 b k ch) (fun a => match a with
    | ⟨0, _⟩ => rfl
    | ⟨1, _⟩ => rfl
    | ⟨2, _⟩ => rfl)).trans ?_
  refine (extractStridedSlice_apply ![0, 4092, 0] _ _ (ix3 b k ch) (ix3 b (⟨4092 + k.val, by omega⟩ : Fin 4096) ch) (fun a => match a with
    | ⟨0, _⟩ => by show b.val = 0 + b.val; omega
    | ⟨1, _⟩ => rfl
    | ⟨2, _⟩ => by show ch.val = 0 + ch.val; omega)).trans ?_
  exact congrFun (tail_x m c) _

/-- THE RUN: every weakly fair execution ends with the first result at the convolution of the arguments, the second
    at the input's trailing state, and the arguments unchanged. -/
theorem run : θ_run defs (onTc (τ := τ) (main (F := Ideal))) ⟨m, fun _ => 0, ρ⟩ fun r => ∀ c : Dev nD,
      r.2.mem ((c : Thread nD τ).loc main_v0) = conv (xArr m c) (stArr m c) (wArr m c) (bArr m c)
      ∧ r.2.mem ((c : Thread nD τ).loc main_v2) = lastFour (xArr m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨((h c).1 4).trans (final_conv m c),
      ((h c).2 main_v2 (Pipeline.mem_restRefs_of main_v2 rfl (fun w => by fin_cases w <;> decide))).trans (tail_state m c),
      ((h c).1 0).trans ((kept m c 0 rfl).trans (V_main_arg0 m c)),
      ((h c).1 1).trans ((kept m c 1 rfl).trans (V_main_arg1 m c)),
      ((h c).1 2).trans ((kept m c 2 rfl).trans (V_main_arg2 m c)),
      ((h c).1 3).trans ((kept m c 3 rfl).trans (V_main_arg3 m c))⟩)
    (run_main m ρ)

end Cert.KernelIdeal.ConvValue

end
-- ==== Proof.lean ====
/-
  A depthwise causal convolution with four taps over a batch of sequences, tiled along time, against its plain
  definition: the two programs compute the same arrays over the extended reals.

  For each batch and channel the input's column is convolved with the channel's four weights after three entries of an
  incoming rolling state are put in front of it, and a bias is added; beside the convolution the programs return the
  state left behind, the column's last four entries. The kernel walks each batch's 4096 time steps in eight tiles of
  512 and carries the last rows of a tile to the next in scratch memory (at a batch's first tile it takes the three
  entries from the incoming state instead); the reference pads the whole column once and adds four shifted slices of
  it. Entry by entry both are

      ((((0 + p[t]·w[c,0]) + p[t+1]·w[c,1]) + p[t+2]·w[c,2]) + p[t+3]·w[c,3]) + bias[c]

  of the padded column `p` (Proof/ConvSpec.lean), with the additions in the same order on both sides, so the equality
  uses no law of the extended reals and no finiteness of the inputs. The kernel's side is read off its run point by
  point (Proof/KTile.lean, Proof/KPieces.lean, Proof/KPoints.lean, Proof/KRun.lean), the reference's side operation
  by operation (Proof/RefValue.lean). Each program runs to the end and leaves its arguments unchanged; the
  idealization rewrote nothing in the kernel.
-/
import proofs.«100175_j59760174956725_1_alg».proof.Defs
import proofs.«100175_j59760174956725_1_alg».proof.Proof.Gen.Kernel
import proofs.«100175_j59760174956725_1_alg».proof.Proof.Gen.Kernel.Skeleton
import proofs.«100175_j59760174956725_1_alg».proof.Proof.Gen.Kernel.Launch
import proofs.«100175_j59760174956725_1_alg».proof.Proof.Gen.Kernel.Points
import proofs.«100175_j59760174956725_1_alg».proof.Proof.Gen.Kernel.Frame
import proofs.«100175_j59760174956725_1_alg».proof.Proof.Gen.KernelIdeal
import proofs.«100175_j59760174956725_1_alg».proof.Proof.Gen.KernelIdeal.Skeleton
import proofs.«100175_j59760174956725_1_alg».proof.Proof.Gen.KernelIdeal.Launch
import proofs.«100175_j59760174956725_1_alg».proof.Proof.Gen.KernelIdeal.Points
import proofs.«100175_j59760174956725_1_alg».proof.Proof.Gen.KernelIdeal.Frame
import proofs.«100175_j59760174956725_1_alg».proof.Proof.Gen.ReferenceIdeal
import proofs.«100175_j59760174956725_1_alg».proof.Proof.Gen.Pre_finite_inputs
import proofs.«100175_j59760174956725_1_alg».proof.Proof.Gen.ReferenceIdeal.Run
import proofs.«100175_j59760174956725_1_alg».proof.Proof.Gen.ReferenceIdeal.Read
import proofs.«100175_j59760174956725_1_alg».proof.Proof.RefValue
import proofs.«100175_j59760174956725_1_alg».proof.Proof.KRun
import Idealize.ShloMosaic.Adequacy
import Idealize.ShloMosaic.Init

noncomputable section

namespace Cert.Proof

open Idealize.ShloMosaic Idealize.ShloMosaic.TcCoe Idealize.SL.Sem

/-- The kernel as printed runs to the end and keeps its arguments. -/
theorem frame_kernel : @Cert.frame_Kernel Cert.Kernel.Gen.facts Cert.Pre_finite_inputs.Gen.facts :=
  fun m ρ _ => Cert.Kernel.Gen.frame m ρ

/-- So does its reading over the extended reals. -/
theorem frame_kernelIdeal : @Cert.frame_KernelIdeal Cert.KernelIdeal.Gen.facts Cert.Pre_finite_inputs.Gen.facts :=
  fun m ρ _ => Cert.KernelIdeal.Gen.frame m ρ

/-- And the reference: its run with the results dropped. -/
theorem frame_referenceIdeal : @Cert.frame_ReferenceIdeal Cert.ReferenceIdeal.Gen.facts Cert.Pre_finite_inputs.Gen.facts :=
  fun m ρ _ => (θ_run Cert.ReferenceIdeal.defs _ _).mono (fun _ h c => (h c).2.2)
    (Cert.ReferenceIdeal.Value.run (F := Ideal) m ρ)

/-- From memories that agree on the arguments both programs end with the convolution of the arguments in the first
    result and the input's trailing state in the second. -/
theorem algebraic : @Cert.algebraic_KernelIdeal_ReferenceIdeal Cert.KernelIdeal.Gen.facts Cert.ReferenceIdeal.Gen.facts
    Cert.Pre_finite_inputs.Gen.facts := by
  intro m ρ m' ρ' _ hagree
  refine ⟨fun c => Cert.CausalConv.conv (Cert.KernelIdeal.ConvValue.xArr m c) (Cert.KernelIdeal.ConvValue.stArr m c)
      (Cert.KernelIdeal.ConvValue.wArr m c) (Cert.KernelIdeal.ConvValue.bArr m c),
    fun c => Cert.CausalConv.lastFour (Cert.KernelIdeal.ConvValue.xArr m c),
    Cert.KernelIdeal.ConvValue.run m ρ, ?_⟩
  refine (θ_run Cert.ReferenceIdeal.defs _ _).mono (fun _ h c => ?_) (Cert.ReferenceIdeal.Value.run (F := Ideal) m' ρ')
  obtain ⟨h37, h36, hargs⟩ := h c
  obtain ⟨e0, e1, e2, e3⟩ := hagree c
  refine ⟨h37.trans ((Cert.ReferenceIdeal.Read.val_main_v37_eq _ _ _ _).trans
      ((Cert.ReferenceIdeal.RefValue.result_conv _ _ _ _).trans ?_)),
    h36.trans ((Cert.ReferenceIdeal.Read.val_main_v36_eq _ _).trans ((Cert.ReferenceIdeal.RefValue.result_state _ _).trans ?_)),
    hargs⟩
  · rw [e0, e1, e2, e3]
  · rw [e0]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
